-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x128 : Shape := ⟨2, ![8192, 128]⟩
abbrev S8192x8192 : Shape := ⟨2, ![8192, 8192]⟩
abbrev S256x128 : Shape := ⟨2, ![256, 128]⟩
abbrev S128x16 : Shape := ⟨2, ![128, 16]⟩
abbrev S8192x16 : Shape := ⟨2, ![8192, 16]⟩
abbrev S16x8192 : Shape := ⟨2, ![16, 8192]⟩
abbrev S_ : Shape := ⟨0, ![]⟩
abbrev S8192 : Shape := ⟨1, ![8192]⟩
abbrev S8192x1 : Shape := ⟨2, ![8192, 1]⟩

class Facts : Prop where
  transposes_S8192x16_S16x8192_1_0 : S8192x16.Transposes [1, 0] S16x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x256 : S_.BroadcastsInDim S8192x256 (![] : Fin 0 → Fin S8192x256.rank)
  reducesTo_S8192x256_S_d0_1 : S8192x256.ReducesTo [0, 1] S_
  bcast_S_S8192x128 : S_.BroadcastsInDim S8192x128 (![] : Fin 0 → Fin S8192x128.rank)
  reducesTo_S8192x128_S_d0_1 : S8192x128.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S256x128 : S_.BroadcastsInDim S256x128 (![] : Fin 0 → Fin S256x128.rank)
  reducesTo_S256x128_S_d0_1 : S256x128.ReducesTo [0, 1] S_
  bcast_S_S128x16 : S_.BroadcastsInDim S128x16 (![] : Fin 0 → Fin S128x16.rank)
  reducesTo_S128x16_S_d0_1 : S128x16.ReducesTo [0, 1] S_
  reducesTo_S8192_S_d0 : S8192.ReducesTo [0] S_
  dot_S8192x256_S256x128_S8192x128_1_0_0_1_n_n_wf : DotDims.WF S8192x256 S256x128 S8192x128 [1] [0] [0] [1] [] []
  dot_S8192x128_S128x16_S8192x16_1_0_0_1_n_n_wf : DotDims.WF S8192x128 S128x16 S8192x16 [1] [0] [0] [1] [] []
  dot_S8192x16_S16x8192_S8192x8192_1_0_0_1_n_n_wf : DotDims.WF S8192x16 S16x8192 S8192x8192 [1] [0] [0] [1] [] []

variable [Facts]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf
def fn_part2 {F : FTy → Type} [FloatOps F] (main_arg4 : FVec F S128x16 .f32) (main_arg5 : FVec F S128x16 .f32) (main_v17 : FVec F S8192x8192 .f32) (main_v36 : IVec S_ 1) : IVec S_ 1 :=
  let main_v37 : FVec F S128x16 .f32 := Host.absf main_arg4
  let main_cst_9 : FVec F S_ .f32 := constant S_ .f32 0x7F800000#32
  let main_v38 : FVec F S128x16 .f32 := broadcastInDim S128x16 ![] bcast_S_S128x16 main_cst_9
  let main_v39 : IVec S128x16 1 := cmpf .olt main_v37 main_v38
  let main_c_10 : IVec S_ 1 := constantI S_ 1 1#1
  let main_v40 : IVec S_ 1 := (fun x v => Host.reduce IntOp.andi x v reducesTo_S128x16_S_d0_1 h_S_) main_v39 main_c_10
  let main_v41 : IVec S_ 1 := andi main_v36 main_v40
  let main_v42 : FVec F S128x16 .f32 := Host.absf main_arg5
  let main_cst_11 : FVec F S_ .f32 := constant S_ .f32 0x7F800000#32
  let main_v43 : FVec F S128x16 .f32 := broadcastInDim S128x16 ![] bcast_S_S128x16 main_cst_11
  let main_v44 : IVec S128x16 1 := cmpf .olt main_v42 main_v43
  let main_c_12 : IVec S_ 1 := constantI S_ 1 1#1
  let main_v45 : IVec S_ 1 := (fun x v => Host.reduce IntOp.andi x v reducesTo_S128x16_S_d0_1 h_S_) main_v44 main_c_12
  let main_v46 : IVec S_ 1 := andi main_v41 main_v45
  let main_cst_13 : FVec F S_ .f32 := constant S_ .f32 0x00000000#32
  let main_v47 : FVec F S8192 .f32 := (fun x v => Host.reduceAdd x v reducesTo_S8192x8192_S8192_d1 h_S_) main_v17 main_cst_13
  let main_cst_14 : FVec F S_ .f32 := constant S_ .f32 0x00000000#32
  let main_v48 : FVec F S8192 .f32 := broadcastInDim S8192 ![] bcast_S_S8192 main_cst_14
  let main_v49 : IVec S8192 1 := cmpf .une main_v47 main_v48
  let main_c_15 : IVec S_ 1 := constantI S_ 1 1#1
  let main_v50 : IVec S_ 1 := (fun x v => Host.reduce IntOp.andi x v reducesTo_S8192_S_d0 h_S_) main_v49 main_c_15
  let main_v51 : IVec S_ 1 := andi main_v46 main_v50
  main_v51

def fn_part1 {F : FTy → Type} [FloatOps F] (main_arg1 : FVec F S8192x128 .f32) (main_arg2 : FVec F S8192x8192 .f32) (main_arg3 : FVec F S256x128 .f32) (main_arg4 : FVec F S128x16 .f32) (main_arg5 : FVec F S128x16 .f32) (main_v17 : FVec F S8192x8192 .f32) (main_v18 : FVec F S8192x256 .f32) (main_v19 : FVec F S8192x256 .f32) : IVec S_ 1 :=
  let main_v20 : IVec S8192x256 1 := cmpf .olt main_v18 main_v19
  let main_c : IVec S_ 1 := constantI S_ 1 1#1
  let main_v21 : IVec S_ 1 := (fun x v => Host.reduce IntOp.andi x v reducesTo_S8192x256_S_d0_1 h_S_) main_v20 main_c
  let main_v22 : FVec F S8192x128 .f32 := Host.absf main_arg1
  let main_cst_3 : FVec F S_ .f32 := constant S_ .f32 0x7F800000#32
  let main_v23 : FVec F S8192x128 .f32 := broadcastInDim S8192x128 ![] bcast_S_S8192x128 main_cst_3
  let main_v24 : IVec S8192x128 1 := cmpf .olt main_v22 main_v23
  let main_c_4 : IVec S_ 1 := constantI S_ 1 1#1
  let main_v25 : IVec S_ 1 := (fun x v => Host.reduce IntOp.andi x v reducesTo_S8192x128_S_d0_1 h_S_) main_v24 main_c_4
  let main_v26 : IVec S_ 1 := andi main_v21 main_v25
  let main_v27 : FVec F S8192x8192 .f32 := Host.absf main_arg2
  let main_cst_5 : FVec F S_ .f32 := constant S_ .f32 0x7F800000#32
  let main_v28 : FVec F S8192x8192 .f32 := broadcastInDim S8192x8192 ![] bcast_S_S8192x8192 main_cst_5
  let main_v29 : IVec S8192x8192 1 := cmpf .olt main_v27 main_v28
  let main_c_6 : IVec S_ 1 := constantI S_ 1 1#1
  let main_v30 : IVec S_ 1 := (fun x v => Host.reduce IntOp.andi x v reducesTo_S8192x8192_S_d0_1 h_S_) main_v29 main_c_6
  let main_v31 : IVec S_ 1 := andi main_v26 main_v30
  let main_v32 : FVec F S256x128 .f32 := Host.absf main_arg3
  let main_cst_7 : FVec F S_ .f32 := constant S_ .f32 0x7F800000#32
  let main_v33 : FVec F S256x128 .f32 := broadcastInDim S256x128 ![] bcast_S_S256x128 main_cst_7
  let main_v34 : IVec S256x128 1 := cmpf .olt main_v32 main_v33
  let main_c_8 : IVec S_ 1 := constantI S_ 1 1#1
  let main_v35 : IVec S_ 1 := (fun x v => Host.reduce IntOp.andi x v reducesTo_S256x128_S_d0_1 h_S_) main_v34 main_c_8
  let main_v36 : IVec S_ 1 := andi main_v31 main_v35
  fn_part2 (F := F) main_arg4 main_arg5 main_v17 main_v36

def fn {F : FTy → Type} [FloatOps F] (main_arg0 : FVec F S8192x256 .f32) (main_arg1 : FVec F S8192x128 .f32) (main_arg2 : FVec F S8192x8192 .f32) (main_arg3 : FVec F S256x128 .f32) (main_arg4 : FVec F S128x16 .f32) (main_arg5 : FVec F S128x16 .f32) : IVec S_ 1 :=
  let main_v0 : FVec F S8192x128 .f32 := (fun l r => Host.dotGeneral dot_S8192x256_S256x128_S8192x128_1_0_0_1_n_n none l r) main_arg0 main_arg3
  let main_v1 : FVec F S8192x128 .f32 := addf main_arg1 main_v0
  let main_v2 : FVec F S8192x16 .f32 := (fun l r => Host.dotGeneral dot_S8192x128_S128x16_S8192x16_1_0_0_1_n_n none l r) main_v1 main_arg4
  let main_v3 : FVec F S8192x16 .f32 := (fun l r => Host.dotGeneral dot_S8192x128_S128x16_S8192x16_1_0_0_1_n_n none l r) main_v1 main_arg5
  let main_v4 : FVec F S16x8192 .f32 := (transpose S16x8192 [1, 0] · transposes_S8192x16_S16x8192_1_0) main_v3
  let main_v5 : FVec F S8192x8192 .f32 := (fun l r => Host.dotGeneral dot_S8192x16_S16x8192_S8192x8192_1_0_0_1_n_n none l r) main_v2 main_v4
  let main_cst : FVec F S_ .f32 := constant S_ .f32 0xFF800000#32
  let main_v6 : FVec F S8192 .f32 := (fun x v => Host.reduce FloatOps.maximumf x v reducesTo_S8192x8192_S8192_d1 h_S_) main_v5 main_cst
  let main_cst_0 : FVec F S_ .f32 := constant S_ .f32 0xFF800000#32
  let main_v7 : FVec F S8192 .f32 := broadcastInDim S8192 ![] bcast_S_S8192 main_cst_0
  let main_v8 : FVec F S8192 .f32 := maximumf main_v7 main_v6
  let main_v9 : FVec F S8192x1 .f32 := broadcastInDim S8192x1 ![0] bcast_S8192_S8192x1_0 main_v8
  let main_v10 : FVec F S8192x8192 .f32 := broadcastInDim S8192x8192 ![0, 1] bcast_S8192x1_S8192x8192_0_1 main_v9
  let main_v11 : FVec F S8192x8192 .f32 := subf main_v5 main_v10
  let main_v12 : FVec F S8192x8192 .f32 := Host.exp main_v11
  let main_cst_1 : FVec F S_ .f32 := constant S_ .f32 0x00000000#32
  let main_v13 : FVec F S8192 .f32 := (fun x v => Host.reduceAdd x v reducesTo_S8192x8192_S8192_d1 h_S_) main_v12 main_cst_1
  let main_v14 : FVec F S8192x1 .f32 := broadcastInDim S8192x1 ![0] bcast_S8192_S8192x1_0 main_v13
  let main_v15 : FVec F S8192x8192 .f32 := broadcastInDim S8192x8192 ![0, 1] bcast_S8192x1_S8192x8192_0_1 main_v14
  let main_v16 : FVec F S8192x8192 .f32 := Host.divf main_v12 main_v15
  let main_v17 : FVec F S8192x8192 .f32 := mulf main_arg2 main_v16
  let main_v18 : FVec F S8192x256 .f32 := Host.absf main_arg0
  let main_cst_2 : FVec F S_ .f32 := constant S_ .f32 0x7F800000#32
  let main_v19 : FVec F S8192x256 .f32 := broadcastInDim S8192x256 ![] bcast_S_S8192x256 main_cst_2
  fn_part1 (F := F) main_arg1 main_arg2 main_arg3 main_arg4 main_arg5 main_v17 main_v18 main_v19
-- ==== Kernel.lean ====
abbrev S8192x256 : Shape := ⟨2, ![8192, 256]⟩
abbrev S8192x128 : Shape := ⟨2, ![8192, 128]⟩
abbrev S8192x8192 : Shape := ⟨2, ![8192, 8192]⟩
abbrev S256x128 : Shape := ⟨2, ![256, 128]⟩
abbrev S128x16 : Shape := ⟨2, ![128, 16]⟩
abbrev S8192x16 : Shape := ⟨2, ![8192, 16]⟩
abbrev S_ : Shape := ⟨0, ![]⟩
abbrev S8192x1 : Shape := ⟨2, ![8192, 1]⟩
abbrev S8192x127 : Shape := ⟨2, ![8192, 127]⟩
abbrev S1024x16 : Shape := ⟨2, ![1024, 16]⟩
abbrev S1024x1024 : Shape := ⟨2, ![1024, 1024]⟩
abbrev S1024x256 : Shape := ⟨2, ![1024, 256]⟩
abbrev S1024x128 : Shape := ⟨2, ![1024, 128]⟩
abbrev S1024x1 : Shape := ⟨2, ![1024, 1]⟩
abbrev S1024 : Shape := ⟨1, ![1024]⟩

abbrev nBuf : Space → Nat
  | .hbm => 19
  | .vmem => 12
  | .smem => 0
  | _ => 0

abbrev bufTy : (tb : Table) → Fin (tcTables nBuf tb) → BufTy
  | .hbm, ⟨0, _⟩ => ⟨S8192x256, .f32⟩
  | .hbm, ⟨1, _⟩ => ⟨S8192x128, .f32⟩
  | .hbm, ⟨2, _⟩ => ⟨S8192x8192, .f32⟩
  | .hbm, ⟨3, _⟩ => ⟨S256x128, .f32⟩
  | .hbm, ⟨4, _⟩ => ⟨S128x16, .f32⟩
  | .hbm, ⟨5, _⟩ => ⟨S128x16, .f32⟩
  | .hbm, ⟨6, _⟩ => ⟨S8192x128, .f32⟩
  | .hbm, ⟨7, _⟩ => ⟨S8192x128, .f32⟩
  | .hbm, ⟨8, _⟩ => ⟨S8192x16, .f32⟩
  | .hbm, ⟨9, _⟩ => ⟨S8192x16, .bf16⟩
  | .hbm, ⟨10, _⟩ => ⟨S8192x16, .f32⟩
  | .hbm, ⟨11, _⟩ => ⟨S8192x16, .bf16⟩
  | .hbm, ⟨12, _⟩ => ⟨S8192x128, .bf16⟩
  | .hbm, ⟨13, _⟩ => ⟨S_, .bf16⟩
  | .hbm, ⟨14, _⟩ => ⟨S8192x1, .bf16⟩
  | .hbm, ⟨15, _⟩ => ⟨S_, .bf16⟩
  | .hbm, ⟨16, _⟩ => ⟨S8192x127, .bf16⟩
  | .hbm, ⟨17, _⟩ => ⟨S8192x256, .bf16⟩
  | .hbm, ⟨18, _⟩ => ⟨S8192x128, .f32⟩
  | .local _ .vmem, ⟨0, _⟩ => ⟨S1024x16, .bf16⟩
  | .local _ .vmem, ⟨1, _⟩ => ⟨S1024x16, .bf16⟩
  | .local _ .vmem, ⟨2, _⟩ => ⟨S1024x16, .bf16⟩
  | .local _ .vmem, ⟨3, _⟩ => ⟨S1024x16, .bf16⟩
  | .local _ .vmem, ⟨4, _⟩ => ⟨S1024x1024, .f32⟩
  | .local _ .vmem, ⟨5, _⟩ => ⟨S1024x1024, .f32⟩
  | .local _ .vmem, ⟨6, _⟩ => ⟨S1024x256, .bf16⟩
  | .local _ .vmem, ⟨7, _⟩ => ⟨S1024x256, .bf16⟩
  | .local _ .vmem, ⟨8, _⟩ => ⟨S1024x128, .f32⟩
  | .local _ .vmem, ⟨9, _⟩ => ⟨S1024x128, .f32⟩
  | .local _ .vmem, ⟨10, _⟩ => ⟨S1024x1, .f32⟩
  | .local _ .vmem, ⟨11, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_20 : BitVec 32 := 0#32
  let v36 : BitVec 1 := Scalar.cmpi .ne v35 c0_i32_20
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  bcast_S_S8192x1 : S_.BroadcastsInDim S8192x1 (![] : Fin 0 → Fin S8192x1.rank)
  bcast_S_S8192x127 : S_.BroadcastsInDim S8192x127 (![] : Fin 0 → Fin S8192x127.rank)
  concatenates_S8192x128_S8192x1_S8192x127_S8192x256_d1 : Shape.Concatenates [S8192x128, S8192x1, S8192x127] S8192x256 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x256 : S1024x1.Broadcasts S1024x256
  slices_S1024x256_o0_0_S1024x128 : S1024x256.Slices ![0, 0] S1024x128
  slices_S1024x256_o0_128_S1024x1 : S1024x256.Slices ![0, 128] S1024x1
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  dot_S8192x256_S256x128_S8192x128_1_0_0_1_n_n_wf : DotDims.WF S8192x256 S256x128 S8192x128 [1] [0] [0] [1] [] []
  dot_S8192x128_S128x16_S8192x16_1_0_0_1_n_n_wf : DotDims.WF S8192x128 S128x16 S8192x16 [1] [0] [0] [1] [] []
  dot_S1024x16_S1024x16_S1024x1024_1_1_0_0_n_n_wf : DotDims.WF S1024x16 S1024x16 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S8192x16.size a
  hwx0_0 : ∀ i : grid0.Coords, EltTy.bits .bf16 = 32 ∨ (Rect.block (s := S8192x16) S1024x16.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S8192x16.size a
  hwx0_1 : ∀ i : grid0.Coords, EltTy.bits .bf16 = 32 ∨ (Rect.block (s := S8192x16) S1024x16.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .bf16 = 32 ∨ (Rect.block (s := S8192x256) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v3) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x128 : Shape := ⟨2, ![8192, 128]⟩
abbrev S8192x8192 : Shape := ⟨2, ![8192, 8192]⟩
abbrev S256x128 : Shape := ⟨2, ![256, 128]⟩
abbrev S128x16 : Shape := ⟨2, ![128, 16]⟩
abbrev S8192x16 : Shape := ⟨2, ![8192, 16]⟩
abbrev S16x8192 : Shape := ⟨2, ![16, 8192]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x128, .f32⟩
  | .hbm, ⟨2, _⟩ => ⟨S8192x8192, .f32⟩
  | .hbm, ⟨3, _⟩ => ⟨S256x128, .f32⟩
  | .hbm, ⟨4, _⟩ => ⟨S128x16, .f32⟩
  | .hbm, ⟨5, _⟩ => ⟨S128x16, .f32⟩
  | .hbm, ⟨6, _⟩ => ⟨S8192x128, .f32⟩
  | .hbm, ⟨7, _⟩ => ⟨S8192x128, .f32⟩
  | .hbm, ⟨8, _⟩ => ⟨S8192x16, .f32⟩
  | .hbm, ⟨9, _⟩ => ⟨S8192x16, .f32⟩
  | .hbm, ⟨10, _⟩ => ⟨S16x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  transposes_S8192x16_S16x8192_1_0 : S8192x16.Transposes [1, 0] S16x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x256_S256x128_S8192x128_1_0_0_1_n_n_wf : DotDims.WF S8192x256 S256x128 S8192x128 [1] [0] [0] [1] [] []
  dot_S8192x128_S128x16_S8192x16_1_0_0_1_n_n_wf : DotDims.WF S8192x128 S128x16 S8192x16 [1] [0] [0] [1] [] []
  dot_S8192x16_S16x8192_S8192x8192_1_0_0_1_n_n_wf : DotDims.WF S8192x16 S16x8192 S8192x8192 [1] [0] [0] [1] [] []
  dot_S8192x8192_S8192x128_S8192x128_1_0_0_1_n_n_wf : DotDims.WF S8192x8192 S8192x128 S8192x128 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.K.Runs.lean ====
/-
  The frame of the attention kernel's program, first part: the program up to its one region (twelve host operations:
  the hidden features, keys, queries and the augmented values, then the launch), the blocks the pipeline stages at
  each of the 64 grid points (qi, kj), the two conditions the body branches on — kj = 0, where the running maximum
  and the accumulator are reset, and kj = 7, where the output block is written — in closed form over the grid, and
  where the output window is idle (every point but kj = 7).
-/
import proofs.«428984_j85152021610588_3_alg».proof.Proof.Gen.Kernel.Launch
import proofs.«428984_j85152021610588_3_alg».proof.Proof.Gen.Kernel.Skeleton
import proofs.«428984_j85152021610588_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: after the twelve host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program up to the region: the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not, for any proof data over `V`
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not, for any proof data over `V`
    whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not, for any proof data over `V`
    whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not, for any proof data over `V`
    whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post over proof data whose arrays are the region-entry contents: the six
    argument arrays end as launched (the structural weights through their window, the others untouched). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's two conditions -/

/-- kj = 0: the reset of the running maximum and the accumulator (the body's first `scf.if`, as its scalar chain). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- kj = 7: the output block is written (the body's second `scf.if`). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where kj ≠ 7 the body stores nothing into the output window, and the pipeline does not write it back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- Where kj = 7 it stores the whole block. -/
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated. -/
abbrev VO0_4 : View sig .tc .vmem S1024x128 .f32 := (Memref.whole cc0_stg4_0 : Memref sig .tc .vmem S1024x128 .f32).view
abbrev ms0_0 (t : Fin cfg0.N) : Memref sig .tc .vmem S1024x16 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x16 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
/-- The running maximum's scratch buffer and the accumulator's, carried from point to point. -/
abbrev scM0_0 : Memref sig .tc .vmem S1024x1 .f32 := Memref.whole cc0_scratch0
abbrev scM0_1 : Memref sig .tc .vmem S1024x256 .f32 := Memref.whole cc0_scratch1
abbrev VS0_0 : View sig .tc .vmem S1024x1 .f32 := scM0_0.view
abbrev VS0_1 : View sig .tc .vmem S1024x256 .f32 := scM0_1.view

/-- The class invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Fr

end
-- ==== Proof.K.RunA.lean ====
/-
  The attention kernel's body at a point with kj = 0: the running maximum is reset to -∞ and the accumulator to zero,
  then the first block of keys is taken in; nothing is stored into the output block. The run names what the two
  scratch buffers end with, as the pieces its stores wrote.
-/
import proofs.«428984_j85152021610588_3_alg».proof.Proof.K.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case kj = 0. On whole staging memrefs — the four inputs at their blocks, the output's handed back untouched, the
    two scratch buffers at anything — the body runs to the continuation holding the inputs as they were and each
    scratch buffer with its pieces written. -/
noncomputable def kernelRun0_A (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : cond0_0 i) (hc1 : ¬cond0_1 i)
    (x0 : Vec F S1024x16 .bf16) (x1 : Vec F S1024x16 .bf16) (x2 : Vec F S1024x1024 .f32) (x3 : Vec F S1024x256 .bf16) :
    Σ' (L4 : List (View.Piece (Elt F) S1024x128 .f32)), Σ' (LS0 : List (View.Piece (Elt F) S1024x1 .f32)), { LS1 : List (View.Piece (Elt F) S1024x256 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__bronx_kernel i arg2 harg2 arg3 harg3 arg4 harg4 arg5 harg5 arg6 harg6 arg7 harg7 arg8 harg8) K } := by
  refine ⟨[], ?_, ?_, fun xi4 E K => ?run⟩
  case run =>
    simp only [cc0__bronx_kernel_eq_skeleton]; unfold cc0__bronx_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Fr

end
-- ==== Proof.K.RunB.lean ====
/-
  The attention kernel's body at a point with 0 < kj < 7: one more block of keys is taken in — the running maximum
  moves to the larger of itself and the block's, the accumulator is rescaled and the block's weighted values added —;
  nothing is stored into the output block.
-/
import proofs.«428984_j85152021610588_3_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case 0 < kj < 7. The two scratch buffers come in at what the point before left (`xs0`, `xs1`). -/
noncomputable def kernelRun0_B (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : ¬cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) :
    Σ' (L4 : List (View.Piece (Elt F) S1024x128 .f32)), Σ' (LS0 : List (View.Piece (Elt F) S1024x1 .f32)), { LS1 : List (View.Piece (Elt F) S1024x256 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__bronx_kernel i arg2 harg2 arg3 harg3 arg4 harg4 arg5 harg5 arg6 harg6 arg7 harg7 arg8 harg8) K } := by
  refine ⟨[], ?_, ?_, fun xi4 E K => ?run⟩
  case run =>
    simp only [cc0__bronx_kernel_eq_skeleton]; unfold cc0__bronx_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Fr

end
-- ==== Proof.K.RunC.lean ====
/-
  The attention kernel's body at a point with kj = 7: the last block of keys is taken in, and the output block is
  written: the accumulator's first 128 columns divided by its column 128.
-/
import proofs.«428984_j85152021610588_3_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case kj = 7. The scratch buffers come in at what the point before left; the output's buffer at anything, and it
    ends with its pieces written. -/
noncomputable def kernelRun0_C (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) :
    Σ' (L4 : List (View.Piece (Elt F) S1024x128 .f32)), Σ' (LS0 : List (View.Piece (Elt F) S1024x1 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__bronx_kernel i arg2 harg2 arg3 harg3 arg4 harg4 arg5 harg5 arg6 harg6 arg7 harg7 arg8 harg8) K } := by
  refine ⟨?_, ?_, ?_, fun E K => ?run⟩
  case run =>
    simp only [cc0__bronx_kernel_eq_skeleton]; unfold cc0__bronx_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.Kernel.Fr

end
-- ==== Proof.K.Frame.lean ====
/-
  The frame of the attention kernel's program, last part. Per case of the body's two conditions, what the output
  block's staging buffer and the two scratch buffers (running maximum, accumulator) hold afterwards; point by point
  over the 64 grid points, the same by recursion — at kj = 0 from the blocks alone, at kj > 0 over what the point
  before left in the scratch buffers —; the region's invariant carrying the scratch buffers at those contents; the
  proof data, the body obligation at every point, the run of the whole program, and the frame: it terminates, nothing
  faults, the six argument arrays end as launched.
-/
import proofs.«428984_j85152021610588_3_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output's staging buffer: its pieces read back over junk (no piece: nothing consults it, the window being idle and not written back there). -/
def out0_A_4 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : cond0_0 i) (hc1 : ¬cond0_1 i)
    (x0 : Vec F S1024x16 .bf16) (x1 : Vec F S1024x16 .bf16) (x2 : Vec F S1024x1024 .f32) (x3 : Vec F S1024x256 .bf16) : Vec F S1024x128 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2 x3).1)
/-- Case A's pieces for the running maximum's buffer cover it. -/
theorem scover0_A_0 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : cond0_0 i) (hc1 : ¬cond0_1 i)
    (x0 : Vec F S1024x16 .bf16) (x1 : Vec F S1024x16 .bf16) (x2 : Vec F S1024x1024 .f32) (x3 : Vec F S1024x256 .bf16) (y : S1024x1.Idx) :
    ∃ pc ∈ (kernelRun0_A c i arg2 harg2 arg3 harg3 arg4 harg4 arg5 harg5 arg6 harg6 arg7 harg7 arg8 harg8 hc0 hc1 x0 x1 x2 x3).2.1, y ∈ pc.1.set :=
  View.cover_of_tiledL (kernelRun0_A c i arg2 harg2 arg3 harg3 arg4 harg4 arg5 harg5 arg6 harg6 arg7 harg7 arg8 harg8 hc0 hc1 x0 x1 x2 x3).2.1 S1024x1.size (by sl_kernel_rfl) y
/-- What case A leaves in the running maximum's buffer. -/
def sout0_A_0 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : cond0_0 i) (hc1 : ¬cond0_1 i)
    (x0 : Vec F S1024x16 .bf16) (x1 : Vec F S1024x16 .bf16) (x2 : Vec F S1024x1024 .f32) (x3 : Vec F S1024x256 .bf16) : Vec F S1024x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).2.1)
/-- Case A's pieces for the accumulator's buffer cover it. -/
theorem scover0_A_1 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : cond0_0 i) (hc1 : ¬cond0_1 i)
    (x0 : Vec F S1024x16 .bf16) (x1 : Vec F S1024x16 .bf16) (x2 : Vec F S1024x1024 .f32) (x3 : Vec F S1024x256 .bf16) (y : S1024x256.Idx) :
    ∃ pc ∈ (kernelRun0_A c i arg2 harg2 arg3 harg3 arg4 harg4 arg5 harg5 arg6 harg6 arg7 harg7 arg8 harg8 hc0 hc1 x0 x1 x2 x3).2.2.1, y ∈ pc.1.set :=
  View.cover_of_tiledL (kernelRun0_A c i arg2 harg2 arg3 harg3 arg4 harg4 arg5 harg5 arg6 harg6 arg7 harg7 arg8 harg8 hc0 hc1 x0 x1 x2 x3).2.2.1 S1024x256.size (by sl_kernel_rfl) y
/-- What case A leaves in the accumulator's buffer. -/
def sout0_A_1 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : cond0_0 i) (hc1 : ¬cond0_1 i)
    (x0 : Vec F S1024x16 .bf16) (x1 : Vec F S1024x16 .bf16) (x2 : Vec F S1024x1024 .f32) (x3 : Vec F S1024x256 .bf16) : Vec F S1024x256 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2 x3).2.2.1)

/-- What case B leaves in the output's staging buffer: its pieces read back over junk (no piece: nothing consults it, the window being idle and not written back there). -/
def out0_B_4 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : ¬cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) : Vec F S1024x128 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 x3 xs0 xs1).1)
/-- Case B's pieces for the running maximum's buffer cover it. -/
theorem scover0_B_0 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : ¬cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) (y : S1024x1.Idx) :
    ∃ pc ∈ (kernelRun0_B c i arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.1 S1024x1.size (by sl_kernel_rfl) y
/-- What case B leaves in the running maximum's buffer. -/
def sout0_B_0 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : ¬cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0 xs1).2.1)
/-- Case B's pieces for the accumulator's buffer cover it. -/
theorem scover0_B_1 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : ¬cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) (y : S1024x256.Idx) :
    ∃ pc ∈ (kernelRun0_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.2.1 S1024x256.size (by sl_kernel_rfl) y
/-- What case B leaves in the accumulator's buffer. -/
def sout0_B_1 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : ¬cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) : Vec F S1024x256 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 x3 xs0 xs1).2.2.1)

/-- Case C's pieces for the output block tile it (one store of the whole block). -/
theorem cover0_C_4 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) (y : S1024x128.Idx) :
    ∃ pc ∈ (kernelRun0_C c i arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg2 harg2 arg3 harg3 arg4 harg4 arg5 harg5 arg6 harg6 arg7 harg7 arg8 harg8 hc0 hc1 x0 x1 x2 x3 xs0 xs1).1 S1024x128.size (by sl_kernel_rfl) y
/-- What case C leaves in the output's staging buffer: its pieces read back over junk. -/
def out0_C_4 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) : Vec F S1024x128 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0 xs1).1)
/-- Case C's pieces for the running maximum's buffer cover it. -/
theorem scover0_C_0 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) (y : S1024x1.Idx) :
    ∃ pc ∈ (kernelRun0_C c i arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.1 S1024x1.size (by sl_kernel_rfl) y
/-- What case C leaves in the running maximum's buffer. -/
def sout0_C_0 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0 xs1).2.1)
/-- Case C's pieces for the accumulator's buffer cover it. -/
theorem scover0_C_1 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) (y : S1024x256.Idx) :
    ∃ pc ∈ (kernelRun0_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.2.1 S1024x256.size (by sl_kernel_rfl) y
/-- What case C leaves in the accumulator's buffer. -/
def sout0_C_1 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) : Vec F S1024x256 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 x3 xs0 xs1).2.2.1)

/-! ## What the buffers hold after each point -/

/-- After the body at position `n`: the output's staging buffer, the running maximum's buffer, the accumulator's. The
    case is the one the closed forms select at `n`; at kj > 0 it runs over what position `n - 1` left in the two
    scratch buffers. (kj = 0 and kj = 7 at once is no point.) -/
def outsAt0 (c : Dev nD) : (n : ℕ) → n < cfg0.N → Vec F S1024x128 .f32 × Vec F S1024x1 .f32 × Vec F S1024x256 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

theorem outsAt0_A (c : Dev nD) (t : Fin cfg0.N) (h0 : t.val % 8 = 0) (h1 : ¬t.val % 8 = 7) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (both scratch buffers at anything);
    afterwards the two scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The arrays as the region finds them; after the body at point `t` each input's buffer at its block and the output's
    at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' memrefs hold their blocks; the closed forms say which case the point is in; the
    invariant hands the body the two scratch buffers at what the point before left (at anything before the first
    point) and takes them back at this point's contents; where kj ≠ 7 the output's buffer is handed back untouched,
    where kj = 7 it comes back with the block written. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 8 = 0
  · by_cases h1 : t.val % 8 = 7
    · exfalso; omega
    · rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 8 = 7
    · rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_4 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _ _ _ _)
    · rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch buffers' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME: the program terminates, nothing faults, the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Fr

end
-- ==== Proof.KI.Runs.lean ====
/-
  The frame of the attention kernel's program, first part: the program up to its one region (twelve host operations:
  the hidden features, keys, queries and the augmented values, then the launch), the blocks the pipeline stages at
  each of the 64 grid points (qi, kj), the two conditions the body branches on — kj = 0, where the running maximum
  and the accumulator are reset, and kj = 7, where the output block is written — in closed form over the grid, and
  where the output window is idle (every point but kj = 7).
-/
import proofs.«428984_j85152021610588_3_alg».proof.Proof.Gen.KernelIdeal.Launch
import proofs.«428984_j85152021610588_3_alg».proof.Proof.Gen.KernelIdeal.Skeleton
import proofs.«428984_j85152021610588_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: after the twelve host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program up to the region: the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not, for any proof data over `V`
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not, for any proof data over `V`
    whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not, for any proof data over `V`
    whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not, for any proof data over `V`
    whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post over proof data whose arrays are the region-entry contents: the six
    argument arrays end as launched (the structural weights through their window, the others untouched). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's two conditions -/

/-- kj = 0: the reset of the running maximum and the accumulator (the body's first `scf.if`, as its scalar chain). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- kj = 7: the output block is written (the body's second `scf.if`). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where kj ≠ 7 the body stores nothing into the output window, and the pipeline does not write it back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- Where kj = 7 it stores the whole block. -/
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated. -/
abbrev VO0_4 : View sig .tc .vmem S1024x128 .f32 := (Memref.whole cc0_stg4_0 : Memref sig .tc .vmem S1024x128 .f32).view
abbrev ms0_0 (t : Fin cfg0.N) : Memref sig .tc .vmem S1024x16 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x16 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
/-- The running maximum's scratch buffer and the accumulator's, carried from point to point. -/
abbrev scM0_0 : Memref sig .tc .vmem S1024x1 .f32 := Memref.whole cc0_scratch0
abbrev scM0_1 : Memref sig .tc .vmem S1024x256 .f32 := Memref.whole cc0_scratch1
abbrev VS0_0 : View sig .tc .vmem S1024x1 .f32 := scM0_0.view
abbrev VS0_1 : View sig .tc .vmem S1024x256 .f32 := scM0_1.view

/-- The class invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Fr

end
-- ==== Proof.KI.RunA.lean ====
/-
  The attention kernel's body at a point with kj = 0: the running maximum is reset to -∞ and the accumulator to zero,
  then the first block of keys is taken in; nothing is stored into the output block. The run names what the two
  scratch buffers end with, as the pieces its stores wrote.
-/
import proofs.«428984_j85152021610588_3_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case kj = 0. On whole staging memrefs — the four inputs at their blocks, the output's handed back untouched, the
    two scratch buffers at anything — the body runs to the continuation holding the inputs as they were and each
    scratch buffer with its pieces written. -/
noncomputable def kernelRun0_A (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : cond0_0 i) (hc1 : ¬cond0_1 i)
    (x0 : Vec F S1024x16 .bf16) (x1 : Vec F S1024x16 .bf16) (x2 : Vec F S1024x1024 .f32) (x3 : Vec F S1024x256 .bf16) :
    Σ' (L4 : List (View.Piece (Elt F) S1024x128 .f32)), Σ' (LS0 : List (View.Piece (Elt F) S1024x1 .f32)), { LS1 : List (View.Piece (Elt F) S1024x256 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__bronx_kernel i arg2 harg2 arg3 harg3 arg4 harg4 arg5 harg5 arg6 harg6 arg7 harg7 arg8 harg8) K } := by
  refine ⟨[], ?_, ?_, fun xi4 E K => ?run⟩
  case run =>
    simp only [cc0__bronx_kernel_eq_skeleton]; unfold cc0__bronx_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Fr

end
-- ==== Proof.KI.RunB.lean ====
/-
  The attention kernel's body at a point with 0 < kj < 7: one more block of keys is taken in — the running maximum
  moves to the larger of itself and the block's, the accumulator is rescaled and the block's weighted values added —;
  nothing is stored into the output block.
-/
import proofs.«428984_j85152021610588_3_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case 0 < kj < 7. The two scratch buffers come in at what the point before left (`xs0`, `xs1`). -/
noncomputable def kernelRun0_B (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : ¬cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) :
    Σ' (L4 : List (View.Piece (Elt F) S1024x128 .f32)), Σ' (LS0 : List (View.Piece (Elt F) S1024x1 .f32)), { LS1 : List (View.Piece (Elt F) S1024x256 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__bronx_kernel i arg2 harg2 arg3 harg3 arg4 harg4 arg5 harg5 arg6 harg6 arg7 harg7 arg8 harg8) K } := by
  refine ⟨[], ?_, ?_, fun xi4 E K => ?run⟩
  case run =>
    simp only [cc0__bronx_kernel_eq_skeleton]; unfold cc0__bronx_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Fr

end
-- ==== Proof.KI.RunC.lean ====
/-
  The attention kernel's body at a point with kj = 7: the last block of keys is taken in, and the output block is
  written: the accumulator's first 128 columns divided by its column 128.
-/
import proofs.«428984_j85152021610588_3_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case kj = 7. The scratch buffers come in at what the point before left; the output's buffer at anything, and it
    ends with its pieces written. -/
noncomputable def kernelRun0_C (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) :
    Σ' (L4 : List (View.Piece (Elt F) S1024x128 .f32)), Σ' (LS0 : List (View.Piece (Elt F) S1024x1 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__bronx_kernel i arg2 harg2 arg3 harg3 arg4 harg4 arg5 harg5 arg6 harg6 arg7 harg7 arg8 harg8) K } := by
  refine ⟨?_, ?_, ?_, fun E K => ?run⟩
  case run =>
    simp only [cc0__bronx_kernel_eq_skeleton]; unfold cc0__bronx_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Fr

end
-- ==== Proof.KI.Frame.lean ====
/-
  The frame of the attention kernel's program, last part. Per case of the body's two conditions, what the output
  block's staging buffer and the two scratch buffers (running maximum, accumulator) hold afterwards; point by point
  over the 64 grid points, the same by recursion — at kj = 0 from the blocks alone, at kj > 0 over what the point
  before left in the scratch buffers —; the region's invariant carrying the scratch buffers at those contents; the
  proof data, the body obligation at every point, the run of the whole program, and the frame: it terminates, nothing
  faults, the six argument arrays end as launched.
-/
import proofs.«428984_j85152021610588_3_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output's staging buffer: its pieces read back over junk (no piece: nothing consults it, the window being idle and not written back there). -/
def out0_A_4 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : cond0_0 i) (hc1 : ¬cond0_1 i)
    (x0 : Vec F S1024x16 .bf16) (x1 : Vec F S1024x16 .bf16) (x2 : Vec F S1024x1024 .f32) (x3 : Vec F S1024x256 .bf16) : Vec F S1024x128 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2 x3).1)
/-- Case A's pieces for the running maximum's buffer cover it. -/
theorem scover0_A_0 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : cond0_0 i) (hc1 : ¬cond0_1 i)
    (x0 : Vec F S1024x16 .bf16) (x1 : Vec F S1024x16 .bf16) (x2 : Vec F S1024x1024 .f32) (x3 : Vec F S1024x256 .bf16) (y : S1024x1.Idx) :
    ∃ pc ∈ (kernelRun0_A c i arg2 harg2 arg3 harg3 arg4 harg4 arg5 harg5 arg6 harg6 arg7 harg7 arg8 harg8 hc0 hc1 x0 x1 x2 x3).2.1, y ∈ pc.1.set :=
  View.cover_of_tiledL (kernelRun0_A c i arg2 harg2 arg3 harg3 arg4 harg4 arg5 harg5 arg6 harg6 arg7 harg7 arg8 harg8 hc0 hc1 x0 x1 x2 x3).2.1 S1024x1.size (by sl_kernel_rfl) y
/-- What case A leaves in the running maximum's buffer. -/
def sout0_A_0 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : cond0_0 i) (hc1 : ¬cond0_1 i)
    (x0 : Vec F S1024x16 .bf16) (x1 : Vec F S1024x16 .bf16) (x2 : Vec F S1024x1024 .f32) (x3 : Vec F S1024x256 .bf16) : Vec F S1024x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).2.1)
/-- Case A's pieces for the accumulator's buffer cover it. -/
theorem scover0_A_1 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : cond0_0 i) (hc1 : ¬cond0_1 i)
    (x0 : Vec F S1024x16 .bf16) (x1 : Vec F S1024x16 .bf16) (x2 : Vec F S1024x1024 .f32) (x3 : Vec F S1024x256 .bf16) (y : S1024x256.Idx) :
    ∃ pc ∈ (kernelRun0_A c i arg2 harg2 arg3 harg3 arg4 harg4 arg5 harg5 arg6 harg6 arg7 harg7 arg8 harg8 hc0 hc1 x0 x1 x2 x3).2.2.1, y ∈ pc.1.set :=
  View.cover_of_tiledL (kernelRun0_A c i arg2 harg2 arg3 harg3 arg4 harg4 arg5 harg5 arg6 harg6 arg7 harg7 arg8 harg8 hc0 hc1 x0 x1 x2 x3).2.2.1 S1024x256.size (by sl_kernel_rfl) y
/-- What case A leaves in the accumulator's buffer. -/
def sout0_A_1 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : cond0_0 i) (hc1 : ¬cond0_1 i)
    (x0 : Vec F S1024x16 .bf16) (x1 : Vec F S1024x16 .bf16) (x2 : Vec F S1024x1024 .f32) (x3 : Vec F S1024x256 .bf16) : Vec F S1024x256 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2 x3).2.2.1)

/-- What case B leaves in the output's staging buffer: its pieces read back over junk (no piece: nothing consults it, the window being idle and not written back there). -/
def out0_B_4 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : ¬cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) : Vec F S1024x128 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 x3 xs0 xs1).1)
/-- Case B's pieces for the running maximum's buffer cover it. -/
theorem scover0_B_0 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : ¬cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) (y : S1024x1.Idx) :
    ∃ pc ∈ (kernelRun0_B c i arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.1 S1024x1.size (by sl_kernel_rfl) y
/-- What case B leaves in the running maximum's buffer. -/
def sout0_B_0 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : ¬cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0 xs1).2.1)
/-- Case B's pieces for the accumulator's buffer cover it. -/
theorem scover0_B_1 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : ¬cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) (y : S1024x256.Idx) :
    ∃ pc ∈ (kernelRun0_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.2.1 S1024x256.size (by sl_kernel_rfl) y
/-- What case B leaves in the accumulator's buffer. -/
def sout0_B_1 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : ¬cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) : Vec F S1024x256 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 x3 xs0 xs1).2.2.1)

/-- Case C's pieces for the output block tile it (one store of the whole block). -/
theorem cover0_C_4 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) (y : S1024x128.Idx) :
    ∃ pc ∈ (kernelRun0_C c i arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg2 harg2 arg3 harg3 arg4 harg4 arg5 harg5 arg6 harg6 arg7 harg7 arg8 harg8 hc0 hc1 x0 x1 x2 x3 xs0 xs1).1 S1024x128.size (by sl_kernel_rfl) y
/-- What case C leaves in the output's staging buffer: its pieces read back over junk. -/
def out0_C_4 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) : Vec F S1024x128 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0 xs1).1)
/-- Case C's pieces for the running maximum's buffer cover it. -/
theorem scover0_C_0 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) (y : S1024x1.Idx) :
    ∃ pc ∈ (kernelRun0_C c i arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.1 S1024x1.size (by sl_kernel_rfl) y
/-- What case C leaves in the running maximum's buffer. -/
def sout0_C_0 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0 xs1).2.1)
/-- Case C's pieces for the accumulator's buffer cover it. -/
theorem scover0_C_1 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) (y : S1024x256.Idx) :
    ∃ pc ∈ (kernelRun0_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.2.1 S1024x256.size (by sl_kernel_rfl) y
/-- What case C leaves in the accumulator's buffer. -/
def sout0_C_1 (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) : Vec F S1024x256 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 x3 xs0 xs1).2.2.1)

/-! ## What the buffers hold after each point -/

/-- After the body at position `n`: the output's staging buffer, the running maximum's buffer, the accumulator's. The
    case is the one the closed forms select at `n`; at kj > 0 it runs over what position `n - 1` left in the two
    scratch buffers. (kj = 0 and kj = 7 at once is no point.) -/
def outsAt0 (c : Dev nD) : (n : ℕ) → n < cfg0.N → Vec F S1024x128 .f32 × Vec F S1024x1 .f32 × Vec F S1024x256 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

theorem outsAt0_A (c : Dev nD) (t : Fin cfg0.N) (h0 : t.val % 8 = 0) (h1 : ¬t.val % 8 = 7) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (both scratch buffers at anything);
    afterwards the two scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The arrays as the region finds them; after the body at point `t` each input's buffer at its block and the output's
    at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' memrefs hold their blocks; the closed forms say which case the point is in; the
    invariant hands the body the two scratch buffers at what the point before left (at anything before the first
    point) and takes them back at this point's contents; where kj ≠ 7 the output's buffer is handed back untouched,
    where kj = 7 it comes back with the block written. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 8 = 0
  · by_cases h1 : t.val % 8 = 7
    · exfalso; omega
    · rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 8 = 7
    · rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_4 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _ _ _ _)
    · rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch buffers' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME: the program terminates, nothing faults, the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Fr

end
-- ==== Proof.Spec.lean ====
/-
  The mathematics both programs compute, row by row, with no program in sight.

  One row of the attention matrix has scores `S c`, structural weights `A c` and, for one output column, values
  `V c` (c ranging over the 8192 keys). The reference normalises twice: `p = exp (S - max S) / Σ exp (S - max S)`,
  `w = (A · p) / Σ (A · p)`, result `Σ w · V` (`refRow`; its second divisor is `refDen`). The kernel walks the keys in
  eight blocks of 1024, carrying a running maximum and an accumulator rescaled whenever the maximum moves
  (`stepMax`, `stepAcc`, `onl`), once with the values `V` and once with the constant value one, and divides the two
  accumulators at the end. On real (finite) data with `refDen ≠ 0` the two agree: the common factor
  `exp (max S) · Σ exp (S - max S)` cancels between numerator and denominator (`online_eq_ref`).
-/
import Idealize.ShloMosaic.PureOps.Ideal

noncomputable section

open scoped BigOperators

namespace Cert.Spec

open Idealize.ShloMosaic

/-- The running row maximum after one more block of scores `sb`: the old maximum against the block's own. -/
def stepMax {bs : ℕ} (mOld : EReal) (sb : Fin bs → EReal) : EReal :=
  max mOld ((Finset.univ : Finset (Fin bs)).fold max ⊥ sb)

/-- The accumulator after one more block: the old one rescaled to the new maximum, plus the block's weighted values. -/
def stepAcc {bs : ℕ} (mOld accOld : EReal) (sb ab vb : Fin bs → EReal) : EReal :=
  Ideal.exp (mOld - stepMax mOld sb) * accOld + ∑ γ : Fin bs, (Ideal.exp (sb γ - stepMax mOld sb) * ab γ) * vb γ

/-- The pair (running maximum, accumulator) after blocks `0 … j`, started from `(-∞, 0)`. -/
def onl {bs : ℕ} (s a v : ℕ → Fin bs → EReal) : ℕ → EReal × EReal
  | 0 => (stepMax ⊥ (s 0), stepAcc ⊥ 0 (s 0) (a 0) (v 0))
  | j + 1 => (stepMax (onl s a v j).1 (s (j + 1)), stepAcc (onl s a v j).1 (onl s a v j).2 (s (j + 1)) (a (j + 1)) (v (j + 1)))

theorem onl_zero {bs : ℕ} (s a v : ℕ → Fin bs → EReal) :
    onl s a v 0 = (stepMax ⊥ (s 0), stepAcc ⊥ 0 (s 0) (a 0) (v 0)) := rfl
theorem onl_succ {bs : ℕ} (s a v : ℕ → Fin bs → EReal) (j : ℕ) :
    onl s a v (j + 1) = (stepMax (onl s a v j).1 (s (j + 1)), stepAcc (onl s a v j).1 (onl s a v j).2 (s (j + 1)) (a (j + 1)) (v (j + 1))) := rfl

/-- The running maximum does not depend on the weights or the values. -/
theorem onl_fst {bs : ℕ} (s a v a' v' : ℕ → Fin bs → EReal) (j : ℕ) : (onl s a v j).1 = (onl s a' v' j).1 := by
  induction j with
  | zero => rfl
  | succ j ih => rw [onl_succ, onl_succ]; exact congrArg (stepMax · (s (j + 1))) ih

/-- Block `j` (of eight, 1024 wide) of a row of 8192 entries; zero past the eighth block. -/
def blk (X : Fin 8192 → EReal) (j : ℕ) (γ : Fin 1024) : EReal :=
  if h : j < 8 then X ⟨1024 * j + γ.val, by omega⟩ else 0

theorem blk_of_lt (X : Fin 8192 → EReal) (j : ℕ) (h : j < 8) (γ : Fin 1024) :
    blk X j γ = X ⟨1024 * j + γ.val, by omega⟩ := dif_pos h

/-- The reference's row maximum: the fold of `max` from `-∞`, once more against `-∞`. -/
def refMax {n : ℕ} (S : Fin n → EReal) : EReal := max ⊥ ((Finset.univ : Finset (Fin n)).fold max ⊥ S)

/-- The softmax weights of a row. -/
def refP {n : ℕ} (S : Fin n → EReal) (c : Fin n) : EReal :=
  Ideal.div (Ideal.exp (S c - refMax S)) (0 + ∑ c' : Fin n, Ideal.exp (S c' - refMax S))

/-- The reference's second divisor: the sum over the row of the structural weight times the softmax weight. -/
def refDen {n : ℕ} (S A : Fin n → EReal) : EReal := 0 + ∑ c : Fin n, A c * refP S c

/-- One entry of the reference's result. -/
def refRow {n : ℕ} (S A V : Fin n → EReal) : EReal :=
  ∑ c : Fin n, Ideal.div (A c * refP S c) (refDen S A) * V c

/-- Real data. -/
def IsReal {α : Type} (f : α → EReal) : Prop := ∀ i, ∃ x : ℝ, f i = (x : EReal)

end Cert.Spec

end
-- ==== Proof.RefValue.lean ====
/-
  The reference's result, entry by entry: row `R`, column `d` of its output is the doubly normalised sum of the
  specification at that row's scores `k_R · q_c`, structural weights `a_str R c` and values `hh c d`; and its second
  divisor at row `R` is the specification's `refDen`.
-/
import proofs.«428984_j85152021610588_3_alg».proof.Defs
import proofs.«428984_j85152021610588_3_alg».proof.Proof.Gen.ReferenceIdeal.Run
import proofs.«428984_j85152021610588_3_alg».proof.Proof.Gen.ReferenceIdeal.Read
import proofs.«428984_j85152021610588_3_alg».proof.Proof.Spec

noncomputable section

open scoped BigOperators

namespace Cert.RefSide

open Cert.ReferenceIdeal Cert.ReferenceIdeal.Read Idealize.ShloMosaic Idealize.ShloMosaic.ValueIdx

/-- The hidden features `hh = eps + h · W_fc`, keys `hh · W_k` and queries `hh · W_q`, as the reference computes them. -/
abbrev hhT (x0 : FVec Ideal S8192x256 .f32) (x1 : FVec Ideal S8192x128 .f32) (x3 : FVec Ideal S256x128 .f32) : FVec Ideal S8192x128 .f32 :=
  val_main_v1 (F := Ideal) x0 x1 x3
abbrev kT (x0 : FVec Ideal S8192x256 .f32) (x1 : FVec Ideal S8192x128 .f32) (x3 : FVec Ideal S256x128 .f32) (x4 : FVec Ideal S128x16 .f32) : FVec Ideal S8192x16 .f32 :=
  val_main_v2 (F := Ideal) x0 x1 x3 x4
abbrev qT (x0 : FVec Ideal S8192x256 .f32) (x1 : FVec Ideal S8192x128 .f32) (x3 : FVec Ideal S256x128 .f32) (x5 : FVec Ideal S128x16 .f32) : FVec Ideal S8192x16 .f32 :=
  val_main_v3 (F := Ideal) x0 x1 x3 x5

/-- Row `R`'s scores against every key `c`. -/
def scoreRow (kk qq : FVec Ideal S8192x16 .f32) (R c : Fin 8192) : EReal := ∑ e : Fin 16, kk (ix2 R e) * qq (ix2 c e)
/-- Row `R` of the structural weights. -/
def wRow (x2 : FVec Ideal S8192x8192 .f32) (R c : Fin 8192) : EReal := x2 (ix2 R c)
/-- Column `d` of the values. -/
def valCol (hh : FVec Ideal S8192x128 .f32) (d : Fin 128) (c : Fin 8192) : EReal := hh (ix2 c d)

/-! ### Index equations: the composed index functions of the stages at explicit coordinates -/

theorem lidx_v5_ix2 (R c : Fin 8192) (e : Fin 16) : lidx_main_v5 (ix2 R c) e = ix2 R e :=
  funext fun a => by match a with | ⟨0, _⟩ => rfl | ⟨1, _⟩ => rfl
theorem ridx_v5_v4_ix2 (R c : Fin 8192) (e : Fin 16) : idx_main_v4 (ridx_main_v5 (ix2 R c) e) = ix2 c e :=
  funext fun a => by match a with | ⟨0, _⟩ => rfl | ⟨1, _⟩ => rfl

/-- The scores: entry `(R, c)` of `k · qᵀ` is row `R`'s score against key `c`. -/
theorem scores_apply (x0 : FVec Ideal S8192x256 .f32) (x1 : FVec Ideal S8192x128 .f32)
    (x3 : FVec Ideal S256x128 .f32) (x4 x5 : FVec Ideal S128x16 .f32) (R c : Fin 8192) :
    val_main_v5 (F := Ideal) x0 x1 x3 x4 x5 (ix2 R c) = scoreRow (kT x0 x1 x3 x4) (qT x0 x1 x3 x5) R c := by
  rw [val_main_v5_apply]
  unfold scoreRow
  refine Finset.sum_congr rfl fun e _ => ?_
  rw [val_main_v4_apply, lidx_v5_ix2, ridx_v5_v4_ix2]

/-! ### The row maximum -/

/-- The word `0xFF800000` is `-∞`. -/
theorem ofBits_neg_inf_f32 : Ideal.ofBits .f32 0xFF800000#32 = ⊥ := by simp [Ideal.ofBits, Ideal.ieee]

/-- Dropping the key axis of the score matrix leaves the row axis. -/
theorem reduces_keys : S8192x8192.Reduces [1] S8192 := by decide

/-- Row `R` with key `k` inserted is entry `(R, k)`. -/
theorem lift_keys_ix (R k : Fin 8192) : reduces_keys.lift (ix1 R) k = ix2 R k :=
  funext fun a => Fin.ext (by match a with | ⟨0, _⟩ => rfl | ⟨1, _⟩ => rfl)

/-- The reduction over the keys: the fold of `max` from `-∞` over row `R`'s scores. -/
theorem rowfold_apply (x0 : FVec Ideal S8192x256 .f32) (x1 : FVec Ideal S8192x128 .f32)
    (x3 : FVec Ideal S256x128 .f32) (x4 x5 : FVec Ideal S128x16 .f32) (R : Fin 8192) :
    val_main_v6 (F := Ideal) x0 x1 x3 x4 x5 (ix1 R)
      = (Finset.univ : Finset (Fin 8192)).fold max ⊥ (scoreRow (kT x0 x1 x3 x4) (qT x0 x1 x3 x5) R) := by
  unfold val_main_v6
  rw [Host.reduce_eq_fold_single (FloatOps.maximumf (F := Ideal) (φ := .f32)) _ _ _ reduces_keys]
  have hf : (val_main_v5 (F := Ideal) x0 x1 x3 x4 x5 ∘ reduces_keys.lift (ix1 R))
      = scoreRow (kT x0 x1 x3 x4) (qT x0 x1 x3 x5) R :=
    funext fun (k : Fin 8192) => by
      show val_main_v5 (F := Ideal) x0 x1 x3 x4 x5 (reduces_keys.lift (ix1 R) k) = _
      rw [lift_keys_ix R k, scores_apply]
  rw [hf, val_main_cst_apply, Ideal.ofBits_def, ofBits_neg_inf_f32]
  rfl

/-- The row maximum as the reference takes it: the fold once more against `-∞`. -/
theorem rowmax_apply (x0 : FVec Ideal S8192x256 .f32) (x1 : FVec Ideal S8192x128 .f32)
    (x3 : FVec Ideal S256x128 .f32) (x4 x5 : FVec Ideal S128x16 .f32) (R : Fin 8192) :
    val_main_v8 (F := Ideal) x0 x1 x3 x4 x5 (ix1 R)
      = Cert.Spec.refMax (scoreRow (kT x0 x1 x3 x4) (qT x0 x1 x3 x5) R) := by
  rw [val_main_v8_apply, val_main_v7_apply, val_main_cst_0_apply, rowfold_apply, Ideal.ofBits_def,
    ofBits_neg_inf_f32, Ideal.maximumf_def]
  rfl

theorem idx_v10_v9_ix2 (R c : Fin 8192) : idx_main_v9 (idx_main_v10 (ix2 R c)) = ix1 R :=
  funext fun a => by match a with | ⟨0, _⟩ => rfl

/-- The row maximum, spread over the row. -/
theorem rowmax_bcast_apply (x0 : FVec Ideal S8192x256 .f32) (x1 : FVec Ideal S8192x128 .f32)
    (x3 : FVec Ideal S256x128 .f32) (x4 x5 : FVec Ideal S128x16 .f32) (R c : Fin 8192) :
    val_main_v10 (F := Ideal) x0 x1 x3 x4 x5 (ix2 R c)
      = Cert.Spec.refMax (scoreRow (kT x0 x1 x3 x4) (qT x0 x1 x3 x5) R) := by
  rw [val_main_v10_apply, val_main_v9_apply, idx_v10_v9_ix2, rowmax_apply]

/-! ### The softmax weights -/

/-- The shifted exponentials. -/
theorem expShift_apply (x0 : FVec Ideal S8192x256 .f32) (x1 : FVec Ideal S8192x128 .f32)
    (x3 : FVec Ideal S256x128 .f32) (x4 x5 : FVec Ideal S128x16 .f32) (R c : Fin 8192) :
    val_main_v12 (F := Ideal) x0 x1 x3 x4 x5 (ix2 R c)
      = Ideal.exp (scoreRow (kT x0 x1 x3 x4) (qT x0 x1 x3 x5) R c
          - Cert.Spec.refMax (scoreRow (kT x0 x1 x3 x4) (qT x0 x1 x3 x5) R)) := by
  rw [val_main_v12_apply, val_main_v11_apply, scores_apply, rowmax_bcast_apply, Ideal.hostUnary_exp_def,
    Ideal.subf_def]

theorem idx_v13_ix1 (R k : Fin 8192) : idx_main_v13 (ix1 R) k = ix2 R k :=
  funext fun a => by match a with | ⟨0, _⟩ => rfl | ⟨1, _⟩ => rfl

/-- The first divisor: the row's sum of shifted exponentials, from zero. -/
theorem expSum_apply (x0 : FVec Ideal S8192x256 .f32) (x1 : FVec Ideal S8192x128 .f32)
    (x3 : FVec Ideal S256x128 .f32) (x4 x5 : FVec Ideal S128x16 .f32) (R : Fin 8192) :
    val_main_v13 (F := Ideal) x0 x1 x3 x4 x5 (ix1 R)
      = 0 + ∑ c' : Fin 8192, Ideal.exp (scoreRow (kT x0 x1 x3 x4) (qT x0 x1 x3 x5) R c'
          - Cert.Spec.refMax (scoreRow (kT x0 x1 x3 x4) (qT x0 x1 x3 x5) R)) := by
  rw [val_main_v13_apply, val_main_cst_1_apply, Ideal.ofBits_def, Ideal.ofBits_zero_f32]
  refine congrArg (0 + ·) (Finset.sum_congr rfl fun k _ => ?_)
  rw [idx_v13_ix1, expShift_apply]

theorem idx_v15_v14_ix2 (R c : Fin 8192) : idx_main_v14 (idx_main_v15 (ix2 R c)) = ix1 R :=
  funext fun a => by match a with | ⟨0, _⟩ => rfl

/-- The softmax weight of key `c` in row `R`. -/
theorem softmax_apply (x0 : FVec Ideal S8192x256 .f32) (x1 : FVec Ideal S8192x128 .f32)
    (x3 : FVec Ideal S256x128 .f32) (x4 x5 : FVec Ideal S128x16 .f32) (R c : Fin 8192) :
    val_main_v16 (F := Ideal) x0 x1 x3 x4 x5 (ix2 R c)
      = Cert.Spec.refP (scoreRow (kT x0 x1 x3 x4) (qT x0 x1 x3 x5) R) c := by
  rw [val_main_v16_apply, val_main_v15_apply, val_main_v14_apply, idx_v15_v14_ix2, expShift_apply, expSum_apply,
    Ideal.hostDivf_def]
  rfl

/-! ### The structural reweighting -/

/-- The structural weight times the softmax weight. -/
theorem weighted_apply (x0 : FVec Ideal S8192x256 .f32) (x1 : FVec Ideal S8192x128 .f32) (x2 : FVec Ideal S8192x8192 .f32)
    (x3 : FVec Ideal S256x128 .f32) (x4 x5 : FVec Ideal S128x16 .f32) (R c : Fin 8192) :
    val_main_v17 (F := Ideal) x0 x1 x2 x3 x4 x5 (ix2 R c)
      = wRow x2 R c * Cert.Spec.refP (scoreRow (kT x0 x1 x3 x4) (qT x0 x1 x3 x5) R) c := by
  rw [val_main_v17_apply, softmax_apply, Ideal.mulf_def]
  rfl

theorem idx_v18_ix1 (R k : Fin 8192) : idx_main_v18 (ix1 R) k = ix2 R k :=
  funext fun a => by match a with | ⟨0, _⟩ => rfl | ⟨1, _⟩ => rfl

theorem ref_den (x0 : FVec Ideal S8192x256 .f32) (x1 : FVec Ideal S8192x128 .f32) (x2 : FVec Ideal S8192x8192 .f32)
    (x3 : FVec Ideal S256x128 .f32) (x4 x5 : FVec Ideal S128x16 .f32) (R : Fin 8192) :
    val_main_v18 (F := Ideal) x0 x1 x2 x3 x4 x5 (ix1 R)
      = Cert.Spec.refDen (scoreRow (kT x0 x1 x3 x4) (qT x0 x1 x3 x5) R) (wRow x2 R) := by
  rw [val_main_v18_apply, val_main_cst_2_apply, Ideal.ofBits_def, Ideal.ofBits_zero_f32]
  unfold Cert.Spec.refDen
  refine congrArg (0 + ·) (Finset.sum_congr rfl fun k _ => ?_)
  rw [idx_v18_ix1, weighted_apply]

theorem idx_v20_v19_ix2 (R c : Fin 8192) : idx_main_v19 (idx_main_v20 (ix2 R c)) = ix1 R :=
  funext fun a => by match a with | ⟨0, _⟩ => rfl

/-- The renormalised weight of key `c` in row `R`. -/
theorem renorm_apply (x0 : FVec Ideal S8192x256 .f32) (x1 : FVec Ideal S8192x128 .f32) (x2 : FVec Ideal S8192x8192 .f32)
    (x3 : FVec Ideal S256x128 .f32) (x4 x5 : FVec Ideal S128x16 .f32) (R c : Fin 8192) :
    val_main_v21 (F := Ideal) x0 x1 x2 x3 x4 x5 (ix2 R c)
      = Ideal.div (wRow x2 R c * Cert.Spec.refP (scoreRow (kT x0 x1 x3 x4) (qT x0 x1 x3 x5) R) c)
          (Cert.Spec.refDen (scoreRow (kT x0 x1 x3 x4) (qT x0 x1 x3 x5) R) (wRow x2 R)) := by
  rw [val_main_v21_apply, val_main_v20_apply, val_main_v19_apply, idx_v20_v19_ix2, weighted_apply, ref_den,
    Ideal.hostDivf_def]

theorem lidx_v22_ix2 (R : Fin 8192) (d : Fin 128) (k : Fin 8192) : lidx_main_v22 (ix2 R d) k = ix2 R k :=
  funext fun a => by match a with | ⟨0, _⟩ => rfl | ⟨1, _⟩ => rfl
theorem ridx_v22_ix2 (R : Fin 8192) (d : Fin 128) (k : Fin 8192) : ridx_main_v22 (ix2 R d) k = ix2 k d :=
  funext fun a => by match a with | ⟨0, _⟩ => rfl | ⟨1, _⟩ => rfl

theorem ref_apply (x0 : FVec Ideal S8192x256 .f32) (x1 : FVec Ideal S8192x128 .f32) (x2 : FVec Ideal S8192x8192 .f32)
    (x3 : FVec Ideal S256x128 .f32) (x4 x5 : FVec Ideal S128x16 .f32) (R : Fin 8192) (d : Fin 128) :
    val_main_v22 (F := Ideal) x0 x1 x2 x3 x4 x5 (ix2 R d)
      = Cert.Spec.refRow (scoreRow (kT x0 x1 x3 x4) (qT x0 x1 x3 x5) R) (wRow x2 R) (valCol (hhT x0 x1 x3) d) := by
  rw [val_main_v22_apply]
  unfold Cert.Spec.refRow
  refine Finset.sum_congr rfl fun k _ => ?_
  rw [lidx_v22_ix2, ridx_v22_ix2, renorm_apply]
  rfl

end Cert.RefSide

end
-- ==== Proof.KI.Pieces.lean ====
/-
  What each case of the attention kernel's body leaves behind, as the body's own arithmetic: the running maximum's
  buffer ends at the new maximum, the accumulator's at the rescaled old accumulator plus the block's weighted values —
  over -∞ and zero where kj = 0, over what the point before left otherwise — and, where kj = 7, the output's buffer at
  the accumulator's first 128 columns divided by its column 128.
-/
import proofs.«428984_j85152021610588_3_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; match a with | ⟨0, _⟩ => rfl | ⟨1, _⟩ => rfl

/-- kj = 0: the new maximum, over the reset value. -/
theorem sout0_A_0_eq (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : cond0_0 i) (hc1 : ¬cond0_1 i)
    (x0 : Vec F S1024x16 .bf16) (x1 : Vec F S1024x16 .bf16) (x2 : Vec F S1024x1024 .f32) (x3 : Vec F S1024x256 .bf16) :
    sout0_A_0 c i arg2 harg2 arg3 harg3 arg4 harg4 arg5 harg5 arg6 harg6 arg7 harg7 arg8 harg8 hc0 hc1 x0 x1 x2 x3 = k0_pay1 (k0_pay6 x0 x1 k0_pay3) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  try sl_unfold_words
  rw [View.canon_cons_unit_zero (S := S1024x1) hz2]
  simp only [View.readAt_eq_ld, harg2.read_unread, harg3.read_unread, harg4.read_unread, harg5.read_unread, harg7.read_unread, harg8.read_unread,
    View.ld_unit_zero (S := S1024x16) hz2, View.ld_unit_zero (S := S1024x1024) hz2, View.ld_unit_zero (S := S1024x256) hz2, View.ld_unit_zero (S := S1024x1) hz2,
    View.readCov_unit_zero (S := S1024x1) _ hz2, View.readCov_unit_zero (S := S1024x256) _ hz2]

/-- kj = 0: the new accumulator, over the reset values. -/
theorem sout0_A_1_eq (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : cond0_0 i) (hc1 : ¬cond0_1 i)
    (x0 : Vec F S1024x16 .bf16) (x1 : Vec F S1024x16 .bf16) (x2 : Vec F S1024x1024 .f32) (x3 : Vec F S1024x256 .bf16) :
    sout0_A_1 c i arg2 harg2 arg3 harg3 arg4 harg4 arg5 harg5 arg6 harg6 arg7 harg7 arg8 harg8 hc0 hc1 x0 x1 x2 x3 = k0_pay7 x0 x1 x2 k0_pay3 k0_pay3 x3 k0_pay4 := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  try sl_unfold_words
  rw [View.canon_cons_unit_zero (S := S1024x256) hz2]
  simp only [View.readAt_eq_ld, harg2.read_unread, harg3.read_unread, harg4.read_unread, harg5.read_unread, harg7.read_unread, harg8.read_unread,
    View.ld_unit_zero (S := S1024x16) hz2, View.ld_unit_zero (S := S1024x1024) hz2, View.ld_unit_zero (S := S1024x256) hz2, View.ld_unit_zero (S := S1024x1) hz2,
    View.readCov_unit_zero (S := S1024x1) _ hz2, View.readCov_unit_zero (S := S1024x256) _ hz2]

/-- 0 < kj < 7: the new maximum, over the old. -/
theorem sout0_B_0_eq (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : ¬cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) :
    sout0_B_0 c i arg2 harg2 arg3 harg3 arg4 harg4 arg5 harg5 arg6 harg6 arg7 harg7 arg8 harg8 hc0 hc1 x0 x1 x2 x3 xs0 xs1 = k0_pay1 (k0_pay6 x0 x1 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  try sl_unfold_words
  rw [View.canon_unit_zero hz2]
  simp only [View.readAt_eq_ld, harg2.read_unread, harg3.read_unread, harg4.read_unread, harg5.read_unread, harg7.read_unread, harg8.read_unread,
    View.ld_unit_zero (S := S1024x16) hz2, View.ld_unit_zero (S := S1024x1024) hz2, View.ld_unit_zero (S := S1024x256) hz2, View.ld_unit_zero (S := S1024x1) hz2,
    View.readCov_unit_zero (S := S1024x1) _ hz2, View.readCov_unit_zero (S := S1024x256) _ hz2]

/-- 0 < kj < 7: the new accumulator, over the old maximum and accumulator. -/
theorem sout0_B_1_eq (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : ¬cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) :
    sout0_B_1 c i arg2 harg2 arg3 harg3 arg4 harg4 arg5 harg5 arg6 harg6 arg7 harg7 arg8 harg8 hc0 hc1 x0 x1 x2 x3 xs0 xs1 = k0_pay7 x0 x1 x2 xs0 xs0 x3 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  try sl_unfold_words
  rw [View.canon_unit_zero hz2]
  simp only [View.readAt_eq_ld, harg2.read_unread, harg3.read_unread, harg4.read_unread, harg5.read_unread, harg7.read_unread, harg8.read_unread,
    View.ld_unit_zero (S := S1024x16) hz2, View.ld_unit_zero (S := S1024x1024) hz2, View.ld_unit_zero (S := S1024x256) hz2, View.ld_unit_zero (S := S1024x1) hz2,
    View.readCov_unit_zero (S := S1024x1) _ hz2, View.readCov_unit_zero (S := S1024x256) _ hz2]

/-- kj = 7: the new maximum, over the old. -/
theorem sout0_C_0_eq (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) :
    sout0_C_0 c i arg2 harg2 arg3 harg3 arg4 harg4 arg5 harg5 arg6 harg6 arg7 harg7 arg8 harg8 hc0 hc1 x0 x1 x2 x3 xs0 xs1 = k0_pay1 (k0_pay6 x0 x1 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  try sl_unfold_words
  rw [View.canon_unit_zero hz2]
  simp only [View.readAt_eq_ld, harg2.read_unread, harg3.read_unread, harg4.read_unread, harg5.read_unread, harg7.read_unread, harg8.read_unread,
    View.ld_unit_zero (S := S1024x16) hz2, View.ld_unit_zero (S := S1024x1024) hz2, View.ld_unit_zero (S := S1024x256) hz2, View.ld_unit_zero (S := S1024x1) hz2,
    View.readCov_unit_zero (S := S1024x1) _ hz2, View.readCov_unit_zero (S := S1024x256) _ hz2]

/-- kj = 7: the new accumulator, over the old maximum and accumulator. -/
theorem sout0_C_1_eq (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) :
    sout0_C_1 c i arg2 harg2 arg3 harg3 arg4 harg4 arg5 harg5 arg6 harg6 arg7 harg7 arg8 harg8 hc0 hc1 x0 x1 x2 x3 xs0 xs1 = k0_pay7 x0 x1 x2 xs0 xs0 x3 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  try sl_unfold_words
  rw [View.canon_unit_zero hz2]
  simp only [View.readAt_eq_ld, harg2.read_unread, harg3.read_unread, harg4.read_unread, harg5.read_unread, harg7.read_unread, harg8.read_unread,
    View.ld_unit_zero (S := S1024x16) hz2, View.ld_unit_zero (S := S1024x1024) hz2, View.ld_unit_zero (S := S1024x256) hz2, View.ld_unit_zero (S := S1024x1) hz2,
    View.readCov_unit_zero (S := S1024x1) _ hz2, View.readCov_unit_zero (S := S1024x256) _ hz2]

/-- kj = 7: the output block, the quotient of the new accumulator's columns. -/
theorem out0_C_4_eq (c : Dev nD) (i : grid0.Coords) (arg2 : Memref sig .tc .vmem S1024x16 .bf16) (harg2 : arg2.IsWhole) (arg3 : Memref sig .tc .vmem S1024x16 .bf16) (harg3 : arg3.IsWhole) (arg4 : Memref sig .tc .vmem S1024x1024 .f32) (harg4 : arg4.IsWhole) (arg5 : Memref sig .tc .vmem S1024x256 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x256 .f32) (harg8 : arg8.IsWhole) (hc0 : ¬cond0_0 i) (hc1 : cond0_1 i)
    (x0 : Vec F S1024x16 .bf16) (x1 : Vec F S1024x16 .bf16) (x2 : Vec F S1024x1024 .f32) (x3 : Vec F S1024x256 .bf16) (xs0 : Vec F S1024x1 .f32) (xs1 : Vec F S1024x256 .f32) :
    out0_C_4 c i arg2 harg2 arg3 harg3 arg4 harg4 arg5 harg5 arg6 harg6 arg7 harg7 arg8 harg8 hc0 hc1 x0 x1 x2 x3 xs0 xs1 = k0_pay2 (k0_pay7 x0 x1 x2 xs0 xs0 x3 xs1) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  try sl_unfold_words
  rw [View.canon_unit_zero hz2]
  simp only [View.readAt_eq_ld, harg2.read_unread, harg3.read_unread, harg4.read_unread, harg5.read_unread, harg7.read_unread, harg8.read_unread,
    View.ld_unit_zero (S := S1024x16) hz2, View.ld_unit_zero (S := S1024x1024) hz2, View.ld_unit_zero (S := S1024x256) hz2, View.ld_unit_zero (S := S1024x1) hz2,
    View.readCov_unit_zero (S := S1024x1) _ hz2, View.readCov_unit_zero (S := S1024x256) _ hz2]

end Cert.KernelIdeal.Fr

end
-- ==== Proof.KI.Payloads.lean ====
/-
  The attention kernel's arithmetic at one entry. Within a grid point the body works on a 1024-row block of keys
  `kb`, a 1024-row block of queries `qb`, the matching 1024 × 1024 block of structural weights and the 1024-row block
  of augmented values. Row `ρ` of the block's scores is `sblk kb qb ρ`; the new running maximum at row `ρ` is the
  specification's `stepMax`, the new accumulator at (ρ, d) its `stepAcc`, and the output at (ρ, d) is the
  accumulator's entry (ρ, d) divided by its entry (ρ, 128).
-/
import proofs.«428984_j85152021610588_3_alg».proof.Proof.Gen.KernelIdeal.Skeleton
import proofs.«428984_j85152021610588_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- Row `ρ` of the block's scores: the key row against each query row of the block. -/
def sblk (kb qb : Vec Ideal S1024x16 .bf16) (ρ γ : Fin 1024) : EReal := ∑ e : Fin 16, kb (ix2 ρ e) * qb (ix2 γ e)

/-! ### Words and layout -/

/-- The word `0xFF800000` is `-∞`. -/
theorem ofBits_neg_inf_f32 : Ideal.ofBits .f32 0xFF800000#32 = ⊥ := by simp [Ideal.ofBits, Ideal.ieee]

/-- A column `[a, 1]` spread over `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) (z : Fin 1) :
    broadcastTo ⟨2, ![a, b]⟩ v h (ix2 p c) = v (ix2 p z) := by
  refine broadcastTo_apply v h (ix2 p c) (ix2 p z) fun ax => ?_
  match ax with
  | ⟨0, _⟩ =>
    show p.val = if a = 1 then 0 else p.val
    split
    · have := p.isLt; omega
    · rfl
  | ⟨1, _⟩ =>
    show z.val = if (1 : ℕ) = 1 then 0 else c.val
    rw [if_pos rfl]; omega

/-- A vector `[a]` cast to the column `[a, 1]` reads, at `(p, z)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-! ### The reset values and the stored maximum -/

/-- The reset values: -∞ for the running maximum, 0 for the accumulator. -/
theorem pay3_apply (j : S1024x1.Idx) : k0_pay3 (F := Ideal) j = ⊥ := by
  unfold k0_pay3
  simp only [shapeCast_self]
  exact ofBits_neg_inf_f32
theorem pay4_apply (j : S1024x256.Idx) : k0_pay4 (F := Ideal) j = 0 := by
  unfold k0_pay4
  simp only [shapeCast_self]
  exact Ideal.ofBits_zero_f32

/-- The new maximum is stored as it is. -/
theorem pay1_eq (v12 : FVec Ideal S1024x1 .f32) : k0_pay1 (F := Ideal) v12 = v12 := by
  unfold k0_pay1
  exact shapeCast_self v12 _

/-! ### The scores: the first product, keys against queries -/

theorem lhs_scores_0 (i : S1024x1024.Idx) (q : dot_S1024x16_S1024x16_S1024x1024_1_1_0_0_n_n.contr.Idx) :
    (dot_S1024x16_S1024x16_S1024x1024_1_1_0_0_n_n.lhsIdx i q 0).val = (i 0).val := by
  unfold DotDims.lhsIdx
  rw [dif_neg (show ¬(0 : Fin S1024x16.rank) ∈ dot_S1024x16_S1024x16_S1024x1024_1_1_0_0_n_n.lhsBatch by decide), dif_pos (show (0 : Fin S1024x16.rank) ∈ dot_S1024x16_S1024x16_S1024x1024_1_1_0_0_n_n.lhsNonContracting by decide)]
  rfl
theorem lhs_scores_1 (i : S1024x1024.Idx) (q : dot_S1024x16_S1024x16_S1024x1024_1_1_0_0_n_n.contr.Idx) :
    (dot_S1024x16_S1024x16_S1024x1024_1_1_0_0_n_n.lhsIdx i q 1).val = (q ⟨0, by decide⟩).val :=
  dot_S1024x16_S1024x16_S1024x1024_1_1_0_0_n_n.lhsIdx_val_of_single rfl i q
theorem rhs_scores_0 (i : S1024x1024.Idx) (q : dot_S1024x16_S1024x16_S1024x1024_1_1_0_0_n_n.contr.Idx) :
    (dot_S1024x16_S1024x16_S1024x1024_1_1_0_0_n_n.rhsIdx i q 0).val = (i 1).val := by
  unfold DotDims.rhsIdx
  rw [dif_neg (show ¬(0 : Fin S1024x16.rank) ∈ dot_S1024x16_S1024x16_S1024x1024_1_1_0_0_n_n.rhsBatch by decide), dif_pos (show (0 : Fin S1024x16.rank) ∈ dot_S1024x16_S1024x16_S1024x1024_1_1_0_0_n_n.rhsNonContracting by decide)]
  rfl
theorem rhs_scores_1 (i : S1024x1024.Idx) (q : dot_S1024x16_S1024x16_S1024x1024_1_1_0_0_n_n.contr.Idx) :
    (dot_S1024x16_S1024x16_S1024x1024_1_1_0_0_n_n.rhsIdx i q 1).val = (q ⟨0, by decide⟩).val :=
  dot_S1024x16_S1024x16_S1024x1024_1_1_0_0_n_n.rhsIdx_val_of_single rfl i q

/-- The first product at (ρ, γ): key row `ρ` against query row `γ`. -/
theorem scores_matmul_apply (l r : FVec Ideal S1024x16 .bf16) (ρ γ : Fin 1024) :
    matmul dot_S1024x16_S1024x16_S1024x1024_1_1_0_0_n_n none l r (constant (F := Ideal) S1024x1024 .f32 0x00000000#32) (ix2 ρ γ)
      = ∑ e : Fin 16, l (ix2 ρ e) * r (ix2 γ e) := by
  simp only [matmul]
  rw [Ideal.matmul_constant_zero_apply, ← Equiv.sum_comp (ValueIdx.contrEquiv1 dot_S1024x16_S1024x16_S1024x1024_1_1_0_0_n_n 16 rfl rfl).symm]
  refine Finset.sum_congr rfl fun k _ => ?_
  have hk := ValueIdx.contrEquiv1_symm_val dot_S1024x16_S1024x16_S1024x1024_1_1_0_0_n_n 16 rfl rfl k
  have el : dot_S1024x16_S1024x16_S1024x1024_1_1_0_0_n_n.lhsIdx (ix2 ρ γ) ((ValueIdx.contrEquiv1 dot_S1024x16_S1024x16_S1024x1024_1_1_0_0_n_n 16 rfl rfl).symm k) = ix2 ρ k := funext fun a => Fin.ext (by
    match a with
    | ⟨0, _⟩ => exact lhs_scores_0 _ _
    | ⟨1, _⟩ => exact (lhs_scores_1 _ _).trans hk)
  have er : dot_S1024x16_S1024x16_S1024x1024_1_1_0_0_n_n.rhsIdx (ix2 ρ γ) ((ValueIdx.contrEquiv1 dot_S1024x16_S1024x16_S1024x1024_1_1_0_0_n_n 16 rfl rfl).symm k) = ix2 γ k := funext fun a => Fin.ext (by
    match a with
    | ⟨0, _⟩ => exact rhs_scores_0 _ _
    | ⟨1, _⟩ => exact (rhs_scores_1 _ _).trans hk)
  rw [el, er]

/-- The scores. -/
theorem pay5_apply (v3 v5 : Vec Ideal S1024x16 .bf16) (ρ γ : Fin 1024) :
    k0_pay5 (F := Ideal) v3 v5 (ix2 ρ γ) = sblk v3 v5 ρ γ := by
  unfold k0_pay5
  simp only [shapeCast_self]
  exact scores_matmul_apply v3 v5 ρ γ

/-! ### The running maximum -/

/-- The lane maximum of a 1024 × 1024 block at row `ρ`: the fold of `max` from `-∞` over the row. -/
theorem lane_max_apply (src : FVec Ideal S1024x1024 .f32) (h : S1024x1024.Reduces [1] S1024) (hφ : FKind.Formats .f32)
    (hacc : (0xFF800000#32 : BitVec FTy.f32.bits) = FKind.maximumf.neutral .f32 hφ) (ρ : Fin 1024) :
    multiReduction .maximumf [1] S1024 src 0xFF800000#32 h hφ hacc (ix1 ρ)
      = (Finset.univ : Finset (Fin 1024)).fold max ⊥ (fun γ => src (ix2 ρ γ)) := by
  refine (Ideal.multiReduction_maximumf_single src _ h hφ hacc (ix1 ρ)).trans ?_
  rw [Ideal.ofBits_def, ofBits_neg_inf_f32]
  have hf : (src ∘ h.lift (ix1 ρ)) = fun γ : Fin 1024 => src (ix2 ρ γ) :=
    funext fun (γ : Fin 1024) => congrArg src (funext fun a => Fin.ext (by match a with | ⟨0, _⟩ => rfl | ⟨1, _⟩ => rfl))
  rw [hf]
  rfl

/-- The new running maximum, as the old one against the block's lane maximum. -/
theorem pay6_unfold (v3 v5 : Vec Ideal S1024x16 .bf16) (mo : Vec Ideal S1024x1 .f32) :
    k0_pay6 (F := Ideal) v3 v5 mo
      = maximumf mo (shapeCast S1024x1 (multiReduction .maximumf [1] S1024 (k0_pay5 (F := Ideal) v3 v5) 0xFF800000#32
          reduces_S1024x1024_S1024 (.inl rfl) rfl) shapeCasts_S1024_S1024x1) := rfl

/-- The new running maximum at row `ρ`. -/
theorem pay6_apply (v3 v5 : Vec Ideal S1024x16 .bf16) (mo : Vec Ideal S1024x1 .f32) (ρ : Fin 1024) (z : Fin 1) :
    k0_pay6 (F := Ideal) v3 v5 mo (ix2 ρ z) = Cert.Spec.stepMax (mo (ix2 ρ z)) (sblk v3 v5 ρ) := by
  rw [pay6_unfold]
  refine (maximumf_apply (s := S1024x1) (φ := .f32) mo _ (ix2 ρ z)).trans ?_
  rw [shapeCast_a_a1_apply _ shapeCasts_S1024_S1024x1 ρ z,
    lane_max_apply (k0_pay5 (F := Ideal) v3 v5) reduces_S1024x1024_S1024 (.inl rfl) rfl ρ]
  unfold Cert.Spec.stepMax
  have hf : (fun γ => k0_pay5 (F := Ideal) v3 v5 (ix2 ρ γ)) = sblk v3 v5 ρ := funext fun γ => pay5_apply v3 v5 ρ γ
  rw [hf]

/-! ### The accumulator: the second product, weights against values -/

theorem lhs_acc_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_acc_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_acc_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_acc_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The second product at (ρ, d): row `ρ` of the weights against column `d` of the values. -/
theorem acc_matmul_apply (l : FVec Ideal S1024x1024 .bf16) (r : FVec Ideal S1024x256 .bf16) (ρ : Fin 1024) (d : Fin 256) :
    matmul dot_S1024x1024_S1024x256_S1024x256_1_0_0_1_n_n none l r (constant (F := Ideal) S1024x256 .f32 0x00000000#32) (ix2 ρ d)
      = ∑ γ : Fin 1024, l (ix2 ρ γ) * r (ix2 γ d) := by
  simp only [matmul]
  rw [Ideal.matmul_constant_zero_apply, ← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 ρ d) ((ValueIdx.contrEquiv1 dot_S1024x1024_S1024x256_S1024x256_1_0_0_1_n_n 1024 rfl rfl).symm k) = ix2 ρ k := funext fun a => Fin.ext (by
    match a with
    | ⟨0, _⟩ => exact lhs_acc_0 _ _
    | ⟨1, _⟩ => exact (lhs_acc_1 _ _).trans hk)
  have er : dot_S1024x1024_S1024x256_S1024x256_1_0_0_1_n_n.rhsIdx (ix2 ρ d) ((ValueIdx.contrEquiv1 dot_S1024x1024_S1024x256_S1024x256_1_0_0_1_n_n 1024 rfl rfl).symm k) = ix2 k d := funext fun a => Fin.ext (by
    match a with
    | ⟨0, _⟩ => exact (rhs_acc_0 _ _).trans hk
    | ⟨1, _⟩ => exact rhs_acc_1 _ _)
  rw [el, er]

/-- The exponential of a vector at an index. -/
theorem exp_apply {s : Shape} {φ : FTy} (a : FVec Ideal s φ) (i : s.Idx) : exp a i = Ideal.exp (a i) := rfl

/-- The new accumulator, as the old one rescaled plus the block's product. -/
theorem pay7_unfold (v3 v5 : Vec Ideal S1024x16 .bf16) (v8 : Vec Ideal S1024x1024 .f32) (v9 v13 : Vec Ideal S1024x1 .f32)
    (v21 : Vec Ideal S1024x256 .bf16) (v23 : Vec Ideal S1024x256 .f32) :
    k0_pay7 (F := Ideal) v3 v5 v8 v9 v13 v21 v23
      = shapeCast S1024x256
          (addf (mulf (broadcastTo S1024x256 (exp (subf v13 (k0_pay6 (F := Ideal) v3 v5 v9))) broadcasts_S1024x1_S1024x256) v23)
            (matmul dot_S1024x1024_S1024x256_S1024x256_1_0_0_1_n_n none
              (truncf .bf16 (mulf (exp (subf (k0_pay5 (F := Ideal) v3 v5)
                (broadcastTo S1024x1024 (k0_pay6 (F := Ideal) v3 v5 v9) broadcasts_S1024x1_S1024x1024))) v8) bitsLt_bf16_f32)
              (shapeCast S1024x256 v21 shapeCasts_S1024x256_S1024x256 : FVec Ideal S1024x256 .bf16)
              (constant (F := Ideal) S1024x256 .f32 0x00000000#32)))
          shapeCasts_S1024x256_S1024x256 := rfl

/-- The new accumulator at (ρ, d): the old one rescaled, plus the block's weighted values. -/
theorem pay7_apply (v3 v5 : Vec Ideal S1024x16 .bf16) (v8 : Vec Ideal S1024x1024 .f32) (mo : Vec Ideal S1024x1 .f32)
    (v21 : Vec Ideal S1024x256 .bf16) (v23 : Vec Ideal S1024x256 .f32) (ρ : Fin 1024) (d : Fin 256) :
    k0_pay7 (F := Ideal) v3 v5 v8 mo mo v21 v23 (ix2 ρ d)
      = Cert.Spec.stepAcc (mo (ix2 ρ (0 : Fin 1))) (v23 (ix2 ρ d)) (sblk v3 v5 ρ) (fun γ => v8 (ix2 ρ γ)) (fun γ => v21 (ix2 γ d)) := by
  rw [pay7_unfold]
  simp only [shapeCast_self]
  refine (addf_apply _ _ (ix2 ρ d)).trans ?_
  unfold Cert.Spec.stepAcc
  rw [mulf_apply, broadcastTo_a1_ab_apply _ broadcasts_S1024x1_S1024x256 ρ d (0 : Fin 1), exp_apply, subf_apply, pay6_apply,
    acc_matmul_apply]
  refine congrArg (_ + ·) (Finset.sum_congr rfl fun γ _ => ?_)
  rw [truncf_apply, mulf_apply, exp_apply, subf_apply, broadcastTo_a1_ab_apply _ broadcasts_S1024x1_S1024x1024 ρ γ (0 : Fin 1),
    pay5_apply, pay6_apply]

/-! ### The output -/

/-- The output at (ρ, d): the accumulator's entry divided by its column 128. -/
theorem pay2_apply (v37 : Vec Ideal S1024x256 .f32) (ρ : Fin 1024) (d : Fin 128) :
    k0_pay2 (F := Ideal) v37 (ix2 ρ d) = Ideal.div (v37 (ix2 ρ (⟨d.val, by omega⟩ : Fin 256))) (v37 (ix2 ρ (⟨128, by omega⟩ : Fin 256))) := by
  unfold k0_pay2
  show Ideal.div (extractStridedSlice S1024x128 ![0, 0] v37 slices_S1024x256_o0_0_S1024x128 (ix2 ρ d))
      (broadcastTo S1024x128 (extractStridedSlice S1024x1 ![0, 128] v37 slices_S1024x256_o0_128_S1024x1)
        broadcasts_S1024x1_S1024x128 (ix2 ρ d)) = _
  rw [broadcastTo_a1_ab_apply _ _ ρ d (0 : Fin 1),
    slice2_axis1_apply 0 v37 slices_S1024x256_o0_0_S1024x128 ρ d (⟨d.val, by omega⟩ : Fin 256) (Nat.zero_add _).symm,
    slice2_axis1_apply 128 v37 slices_S1024x256_o0_128_S1024x1 ρ (0 : Fin 1) (⟨128, by omega⟩ : Fin 256) rfl]

end Cert.KernelIdeal.Pay

end
-- ==== Proof.KI.Blocks.lean ====
/-
  The blocks the pipeline stages at grid point t = 8·qi + kj, entry by entry: the key block is rows 1024·qi … of the
  key array, the query block rows 1024·kj … of the query array, the weight block the (qi, kj) tile of the structural
  weights, the value block rows 1024·kj … of the augmented values.
-/
import proofs.«428984_j85152021610588_3_alg».proof.Proof.KI.Frame
import proofs.«428984_j85152021610588_3_alg».proof.Proof.RefValue
import Idealize.ShloMosaic.Lib.Pipeline.Value
import Idealize.ShloMosaic.Lib.ValueIdx
import Idealize.ShloMosaic.Lib.ValueLayout

noncomputable section

open scoped BigOperators

namespace Cert.KernelIdeal.Fr

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## Where each window's block sits

  At point t the grid coordinates are (qi, kj) = (t / 8, t % 8). The key window follows qi, the query and value
  windows follow kj, the weight window follows both; every window's second block index is zero except the
  weight window's. Decided once over the 64 points. -/

theorem idx_facts0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx_facts1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem idx_facts2 : ∀ t : Fin cfg0.N, win0_2.index t (0 : Fin 2) = t.val / 8 ∧ win0_2.index t (1 : Fin 2) = t.val % 8 :=
  (by decide +kernel : ∀ t : Fin grid0.N, win0_2.index t (0 : Fin 2) = t.val / 8 ∧ win0_2.index t (1 : Fin 2) = t.val % 8)
theorem idx_facts3 : ∀ t : Fin cfg0.N, win0_3.index t (0 : Fin 2) = t.val % 8 ∧ win0_3.index t (1 : Fin 2) = 0 :=
  (by decide +kernel : ∀ t : Fin grid0.N, win0_3.index t (0 : Fin 2) = t.val % 8 ∧ win0_3.index t (1 : Fin 2) = 0)

/-! ## A block's entry is the array's

  A block's coordinate in its array is always (block index) · (block extent) + the coordinate inside the block. -/

/-- Key window: row ρ of the block at point t is row 1024·(t / 8) + ρ of the array. -/
theorem iblk0_apply (c : Dev nD) (t : Fin cfg0.N) (ρ : Fin 1024) (e : Fin 16) (R : Fin 8192) (hR : R.val = 1024 * (t.val / 8) + ρ.val) :
    (iblk m c 0 t : Vec Ideal S1024x16 .bf16) (ix2 ρ e) = (V m c main_v3 : S8192x16.Idx → EReal) (ix2 R e) := by
  have hi := idx_facts0 t
  unfold iblk
  rw [View.read_apply]
  show V m c main_v3 _ = V m c main_v3 _
  congr 1
  funext a
  apply Fin.ext
  match a with
  | ⟨0, _⟩ => show win0_0.index t 0 * 1024 + 1 * ρ.val = R.val; rw [hi.1, hR]; omega
  | ⟨1, _⟩ => show win0_0.index t 1 * 16 + 1 * e.val = e.val; rw [hi.2]; omega

/-- Query window: row γ of the block at point t is row 1024·(t % 8) + γ of the array. -/
theorem iblk1_apply (c : Dev nD) (t : Fin cfg0.N) (γ : Fin 1024) (e : Fin 16) (C : Fin 8192) (hC : C.val = 1024 * (t.val % 8) + γ.val) :
    (iblk m c 1 t : Vec Ideal S1024x16 .bf16) (ix2 γ e) = (V m c main_v5 : S8192x16.Idx → EReal) (ix2 C e) := by
  have hi := idx_facts1 t
  unfold iblk
  rw [View.read_apply]
  show V m c main_v5 _ = V m c main_v5 _
  congr 1
  funext a
  apply Fin.ext
  match a with
  | ⟨0, _⟩ => show win0_1.index t 0 * 1024 + 1 * γ.val = C.val; rw [hi.1, hC]; omega
  | ⟨1, _⟩ => show win0_1.index t 1 * 16 + 1 * e.val = e.val; rw [hi.2]; omega

/-- Weight window: entry (ρ, γ) of the block at point t is entry (1024·(t / 8) + ρ, 1024·(t % 8) + γ) of the array. -/
theorem iblk2_apply (c : Dev nD) (t : Fin cfg0.N) (ρ γ : Fin 1024) (R C : Fin 8192) (hR : R.val = 1024 * (t.val / 8) + ρ.val) (hC : C.val = 1024 * (t.val % 8) + γ.val) :
    (iblk m c 2 t : Vec Ideal S1024x1024 .f32) (ix2 ρ γ) = (V m c main_arg2 : S8192x8192.Idx → EReal) (ix2 R C) := by
  have hi := idx_facts2 t
  unfold iblk
  rw [View.read_apply]
  show V m c main_arg2 _ = V m c main_arg2 _
  congr 1
  funext a
  apply Fin.ext
  match a with
  | ⟨0, _⟩ => show win0_2.index t 0 * 1024 + 1 * ρ.val = R.val; rw [hi.1, hR]; omega
  | ⟨1, _⟩ => show win0_2.index t 1 * 1024 + 1 * γ.val = C.val; rw [hi.2, hC]; omega

/-- Value window: row γ of the block at point t is row 1024·(t % 8) + γ of the array. -/
theorem iblk3_apply (c : Dev nD) (t : Fin cfg0.N) (γ : Fin 1024) (d : Fin 256) (C : Fin 8192) (hC : C.val = 1024 * (t.val % 8) + γ.val) :
    (iblk m c 3 t : Vec Ideal S1024x256 .bf16) (ix2 γ d) = (V m c main_v9 : S8192x256.Idx → EReal) (ix2 C d) := by
  have hi := idx_facts3 t
  unfold iblk
  rw [View.read_apply]
  show V m c main_v9 _ = V m c main_v9 _
  congr 1
  funext a
  apply Fin.ext
  match a with
  | ⟨0, _⟩ => show win0_3.index t 0 * 1024 + 1 * γ.val = C.val; rw [hi.1, hC]; omega
  | ⟨1, _⟩ => show win0_3.index t 1 * 256 + 1 * d.val = d.val; rw [hi.2]; omega

end Cert.KernelIdeal.Fr

end
-- ==== Proof.KI.HostVals.lean ====
/-
  What the region finds in the arrays it stages, as functions of the program's six inputs: the key and query arrays are
  the reference's keys and queries (the change of format is the identity on the extended reals), the structural
  weights are the input itself, and the augmented values are the hidden features in columns 0 … 127, the constant one
  in column 128, zero beyond.
-/
import proofs.«428984_j85152021610588_3_alg».proof.Proof.KI.Frame
import proofs.«428984_j85152021610588_3_alg».proof.Proof.RefValue
import Idealize.ShloMosaic.Lib.Pipeline.Value
import Idealize.ShloMosaic.Lib.ValueIdx
import Idealize.ShloMosaic.Lib.ValueLayout
import Idealize.ShloMosaic.Lib.IdealHost

noncomputable section

open scoped BigOperators

namespace Cert.KernelIdeal.Fr

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The program's inputs on core c. -/
abbrev in0 (c : Dev nD) : FVec Ideal S8192x256 .f32 := m ((c : Thread nD τ).loc main_arg0)
abbrev in1 (c : Dev nD) : FVec Ideal S8192x128 .f32 := m ((c : Thread nD τ).loc main_arg1)
abbrev in2 (c : Dev nD) : FVec Ideal S8192x8192 .f32 := m ((c : Thread nD τ).loc main_arg2)
abbrev in3 (c : Dev nD) : FVec Ideal S256x128 .f32 := m ((c : Thread nD τ).loc main_arg3)
abbrev in4 (c : Dev nD) : FVec Ideal S128x16 .f32 := m ((c : Thread nD τ).loc main_arg4)
abbrev in5 (c : Dev nD) : FVec Ideal S128x16 .f32 := m ((c : Thread nD τ).loc main_arg5)

/-- The key array the region finds is the reference's keys. -/
theorem V_keys (c : Dev nD) (j : S8192x16.Idx) :
    (V m c main_v3 : S8192x16.Idx → EReal) j = Cert.RefSide.kT (in0 m c) (in1 m c) (in3 m c) (in4 m c) j := by
  dsimp only [V, hostOps0]
  after_results
  rfl

/-- The query array the region finds is the reference's queries. -/
theorem V_queries (c : Dev nD) (j : S8192x16.Idx) :
    (V m c main_v5 : S8192x16.Idx → EReal) j = Cert.RefSide.qT (in0 m c) (in1 m c) (in3 m c) (in5 m c) j := by
  dsimp only [V, hostOps0]
  after_results
  rfl

/-- The structural weights are the input. -/
theorem V_weights (c : Dev nD) : (V m c main_arg2 : S8192x8192.Idx → EReal) = in2 m c :=
  V_main_arg2 m c

/-- The augmented values: hidden features, then a column of ones, then zeros. -/
theorem V_values_lt (c : Dev nD) (C : Fin 8192) (d : Fin 256) (hd : d.val < 128) (d' : Fin 128) (hd' : d'.val = d.val) :
    (V m c main_v9 : S8192x256.Idx → EReal) (ix2 C d) = Cert.RefSide.hhT (in0 m c) (in1 m c) (in3 m c) (ix2 C d') := by
  dsimp only [V, hostOps0]
  after_results
  -- column d < 128 lies in the first of the three pieces laid side by side, at the same row and column
  refine (concatenate_apply_piece 1 _ _ (ix2 C d) 0 (by show 0 < 3; decide) S8192x128 _ rfl rfl 0 rfl (ix2 C d') ?_ ?_).trans ?_
  · intro b hb
    match b, hb with
    | ⟨0, _⟩, _ => rfl
    | ⟨1, _⟩, hb => exact absurd rfl hb
  · show 0 + d'.val = d.val
    omega
  -- that piece is the hidden features; the change of format is the identity on the extended reals
  · beta_reduce
    simp only [Matrix.cons_val]
    after_results_simp
    rfl
theorem V_values_one (c : Dev nD) (C : Fin 8192) (d : Fin 256) (hd : d.val = 128) :
    (V m c main_v9 : S8192x256.Idx → EReal) (ix2 C d) = (1 : EReal) := by
  dsimp only [V, hostOps0]
  after_results
  -- column 128 is the single column of the second piece, past the 128 columns of the first
  refine (concatenate_apply_piece 1 _ _ (ix2 C d) 1 (by show 1 < 3; decide) S8192x1 _ rfl rfl 128 rfl (ix2 C (0 : Fin 1)) ?_ ?_).trans ?_
  · intro b hb
    match b, hb with
    | ⟨0, _⟩, _ => rfl
    | ⟨1, _⟩, hb => exact absurd rfl hb
  · show 128 + 0 = d.val
    omega
  -- that piece is the constant one spread over the rows
  · beta_reduce
    simp only [Matrix.cons_val]
    after_results_simp
    show Ideal.ofBits .bf16 0x3F80#16 = 1
    exact Ideal.ofBits_one_bf16

end Cert.KernelIdeal.Fr

end
-- ==== Proof.KI.Inv.lean ====
/-
  The two scratch buffers, point by point, are the specification's running pair. At grid point t = 8·qi + kj, row ρ of
  the block is row R = 1024·qi + ρ of the attention matrix; the block's scores, weights and values are block kj of
  that row's scores, structural weights and (for column d) augmented values; so after the point the running
  maximum's buffer holds, at row ρ, the first component of `onl` after block kj, and the accumulator's, at (ρ, d),
  the second. By induction over the 64 points: kj = 0 starts the recursion afresh, kj > 0 continues it over what the
  point before left.
-/
import proofs.«428984_j85152021610588_3_alg».proof.Proof.KI.Frame
import proofs.«428984_j85152021610588_3_alg».proof.Proof.RefValue
import Idealize.ShloMosaic.Lib.Pipeline.Value
import Idealize.ShloMosaic.Lib.ValueIdx
import Idealize.ShloMosaic.Lib.ValueLayout
import proofs.«428984_j85152021610588_3_alg».proof.Proof.KI.Pieces
import proofs.«428984_j85152021610588_3_alg».proof.Proof.KI.Payloads
import proofs.«428984_j85152021610588_3_alg».proof.Proof.KI.Blocks
import proofs.«428984_j85152021610588_3_alg».proof.Proof.KI.HostVals

set_option maxRecDepth 16384

noncomputable section

open scoped BigOperators

namespace Cert.KernelIdeal.Fr

open Cert.KernelIdeal Cert.KernelIdeal.Gen
open Idealize.ShloMosaic Idealize.ShloMosaic.TcCoe Idealize.SL.Sem Idealize.ShloMosaic.ValueIdx
open Idealize.ShloMosaic.Pipeline (Dat)
open Cert.Spec Cert.KernelIdeal.Pay Cert.RefSide

variable (m : (ℓ : Loc nD τ sig) → Buf (Elt Ideal) ℓ)

/-! ## One row of the attention matrix, as the specification takes it -/

/-- Row R's scores against every key. -/
def Srow (c : Dev nD) (R : Fin 8192) : Fin 8192 → EReal :=
  scoreRow (kT (in0 m c) (in1 m c) (in3 m c) (in4 m c)) (qT (in0 m c) (in1 m c) (in3 m c) (in5 m c)) R
/-- Row R of the structural weights. -/
def Arow (c : Dev nD) (R : Fin 8192) : Fin 8192 → EReal := wRow (in2 m c) R
/-- Column d of the augmented values. -/
def Vcol (c : Dev nD) (d : Fin 256) : Fin 8192 → EReal := fun C => (V m c main_v9 : S8192x256.Idx → EReal) (ix2 C d)

/-- The block of scores at point t, row ρ, is block t % 8 of row R's scores. -/
theorem blk_scores (c : Dev nD) (t : Fin cfg0.N) (ρ : Fin 1024) (R : Fin 8192) (hR : R.val = 1024 * (t.val / 8) + ρ.val) :
    sblk (iblk m c 0 t) (iblk m c 1 t) ρ = blk (Srow m c R) (t.val % 8) := by
  funext γ
  have hk : t.val % 8 < 8 := Nat.mod_lt _ (by decide)
  rw [blk_of_lt _ _ hk]
  unfold sblk Srow scoreRow
  refine Finset.sum_congr rfl fun e _ => ?_
  rw [iblk0_apply m c t ρ e R hR, iblk1_apply m c t γ e ⟨1024 * (t.val % 8) + γ.val, by omega⟩ rfl, V_keys, V_queries]

/-- The block of weights at point t, row ρ, is block t % 8 of row R's weights. -/
theorem blk_weights (c : Dev nD) (t : Fin cfg0.N) (ρ : Fin 1024) (R : Fin 8192) (hR : R.val = 1024 * (t.val / 8) + ρ.val) :
    (fun γ => (iblk m c 2 t : Vec Ideal S1024x1024 .f32) (ix2 ρ γ)) = blk (Arow m c R) (t.val % 8) := by
  funext γ
  have hk : t.val % 8 < 8 := Nat.mod_lt _ (by decide)
  rw [blk_of_lt _ _ hk]
  unfold Arow wRow
  rw [iblk2_apply m c t ρ γ R ⟨1024 * (t.val % 8) + γ.val, by omega⟩ hR rfl, V_weights]

/-- The block of values at point t, column d, is block t % 8 of that column. -/
theorem blk_values (c : Dev nD) (t : Fin cfg0.N) (d : Fin 256) :
    (fun γ => (iblk m c 3 t : Vec Ideal S1024x256 .bf16) (ix2 γ d)) = blk (Vcol m c d) (t.val % 8) := by
  funext γ
  have hk : t.val % 8 < 8 := Nat.mod_lt _ (by decide)
  rw [blk_of_lt _ _ hk]
  unfold Vcol
  rw [iblk3_apply m c t γ d ⟨1024 * (t.val % 8) + γ.val, by omega⟩ rfl]

/-! ## One point's step, entry by entry -/

theorem max_A (c : Dev nD) (t : Fin cfg0.N) (h0 : t.val % 8 = 0) (h1 : ¬t.val % 8 = 7) (ρ : Fin 1024) (z : Fin 1) :
    ((outsAt0 m c t.val t.isLt).2.1 : Vec Ideal S1024x1 .f32) (ix2 ρ z) = stepMax ⊥ (sblk (iblk m c 0 t) (iblk m c 1 t) ρ) := by
  rw [outsAt0_A m c t h0 h1]; dsimp only
  refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (ix2 ρ z)).trans ?_
  rw [pay1_eq]
  refine (pay6_apply (iblk m c 0 t) (iblk m c 1 t) (k0_pay3 (F := Ideal)) ρ z).trans ?_
  rw [pay3_apply]

theorem acc_A (c : Dev nD) (t : Fin cfg0.N) (h0 : t.val % 8 = 0) (h1 : ¬t.val % 8 = 7) (ρ : Fin 1024) (d : Fin 256) :
    ((outsAt0 m c t.val t.isLt).2.2 : Vec Ideal S1024x256 .f32) (ix2 ρ d) = stepAcc ⊥ 0 (sblk (iblk m c 0 t) (iblk m c 1 t) ρ) (fun γ => (iblk m c 2 t : Vec Ideal S1024x1024 .f32) (ix2 ρ γ)) (fun γ => (iblk m c 3 t : Vec Ideal S1024x256 .bf16) (ix2 γ d)) := by
  rw [outsAt0_A m c t h0 h1]; dsimp only
  refine (congrFun (sout0_A_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (ix2 ρ d)).trans ?_
  refine (pay7_apply (iblk m c 0 t) (iblk m c 1 t) (iblk m c 2 t) (k0_pay3 (F := Ideal)) (iblk m c 3 t) (k0_pay4 (F := Ideal)) ρ d).trans ?_
  rw [pay3_apply, pay4_apply]

theorem max_B (c : Dev nD) (t : Fin cfg0.N) (h0 : ¬t.val % 8 = 0) (h1 : ¬t.val % 8 = 7) (ρ : Fin 1024) (z : Fin 1) :
    ((outsAt0 m c t.val t.isLt).2.1 : Vec Ideal S1024x1 .f32) (ix2 ρ z) = stepMax ((outsAt0 m c (t.val - 1) (Nat.lt_of_le_of_lt (Nat.sub_le _ _) t.isLt)).2.1 (ix2 ρ z)) (sblk (iblk m c 0 t) (iblk m c 1 t) ρ) := by
  rw [outsAt0_B m c t h0 h1]; dsimp only
  refine (congrFun (sout0_B_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 ρ z)).trans ?_
  rw [pay1_eq]
  refine (pay6_apply (iblk m c 0 t) (iblk m c 1 t) (outsAt0 m c (t.val - 1) (Nat.lt_of_le_of_lt (Nat.sub_le _ _) t.isLt)).2.1 ρ z).trans ?_
  rfl

theorem acc_B (c : Dev nD) (t : Fin cfg0.N) (h0 : ¬t.val % 8 = 0) (h1 : ¬t.val % 8 = 7) (ρ : Fin 1024) (d : Fin 256) :
    ((outsAt0 m c t.val t.isLt).2.2 : Vec Ideal S1024x256 .f32) (ix2 ρ d) = stepAcc ((outsAt0 m c (t.val - 1) (Nat.lt_of_le_of_lt (Nat.sub_le _ _) t.isLt)).2.1 (ix2 ρ (0 : Fin 1))) ((outsAt0 m c (t.val - 1) (Nat.lt_of_le_of_lt (Nat.sub_le _ _) t.isLt)).2.2 (ix2 ρ d)) (sblk (iblk m c 0 t) (iblk m c 1 t) ρ) (fun γ => (iblk m c 2 t : Vec Ideal S1024x1024 .f32) (ix2 ρ γ)) (fun γ => (iblk m c 3 t : Vec Ideal S1024x256 .bf16) (ix2 γ d)) := by
  rw [outsAt0_B m c t h0 h1]; dsimp only
  refine (congrFun (sout0_B_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 ρ d)).trans ?_
  refine (pay7_apply (iblk m c 0 t) (iblk m c 1 t) (iblk m c 2 t) (outsAt0 m c (t.val - 1) (Nat.lt_of_le_of_lt (Nat.sub_le _ _) t.isLt)).2.1 (iblk m c 3 t) (outsAt0 m c (t.val - 1) (Nat.lt_of_le_of_lt (Nat.sub_le _ _) t.isLt)).2.2 ρ d).trans ?_
  rfl

theorem max_C (c : Dev nD) (t : Fin cfg0.N) (h0 : ¬t.val % 8 = 0) (h1 : t.val % 8 = 7) (ρ : Fin 1024) (z : Fin 1) :
    ((outsAt0 m c t.val t.isLt).2.1 : Vec Ideal S1024x1 .f32) (ix2 ρ z) = stepMax ((outsAt0 m c (t.val - 1) (Nat.lt_of_le_of_lt (Nat.sub_le _ _) t.isLt)).2.1 (ix2 ρ z)) (sblk (iblk m c 0 t) (iblk m c 1 t) ρ) := by
  rw [outsAt0_C m c t h0 h1]; dsimp only
  refine (congrFun (sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 ρ z)).trans ?_
  rw [pay1_eq]
  refine (pay6_apply (iblk m c 0 t) (iblk m c 1 t) (outsAt0 m c (t.val - 1) (Nat.lt_of_le_of_lt (Nat.sub_le _ _) t.isLt)).2.1 ρ z).trans ?_
  rfl

theorem acc_C (c : Dev nD) (t : Fin cfg0.N) (h0 : ¬t.val % 8 = 0) (h1 : t.val % 8 = 7) (ρ : Fin 1024) (d : Fin 256) :
    ((outsAt0 m c t.val t.isLt).2.2 : Vec Ideal S1024x256 .f32) (ix2 ρ d) = stepAcc ((outsAt0 m c (t.val - 1) (Nat.lt_of_le_of_lt (Nat.sub_le _ _) t.isLt)).2.1 (ix2 ρ (0 : Fin 1))) ((outsAt0 m c (t.val - 1) (Nat.lt_of_le_of_lt (Nat.sub_le _ _) t.isLt)).2.2 (ix2 ρ d)) (sblk (iblk m c 0 t) (iblk m c 1 t) ρ) (fun γ => (iblk m c 2 t : Vec Ideal S1024x1024 .f32) (ix2 ρ γ)) (fun γ => (iblk m c 3 t : Vec Ideal S1024x256 .bf16) (ix2 γ d)) := by
  rw [outsAt0_C m c t h0 h1]; dsimp only
  refine (congrFun (sout0_C_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 ρ d)).trans ?_
  refine (pay7_apply (iblk m c 0 t) (iblk m c 1 t) (iblk m c 2 t) (outsAt0 m c (t.val - 1) (Nat.lt_of_le_of_lt (Nat.sub_le _ _) t.isLt)).2.1 (iblk m c 3 t) (outsAt0 m c (t.val - 1) (Nat.lt_of_le_of_lt (Nat.sub_le _ _) t.isLt)).2.2 ρ d).trans ?_
  rfl

/-- Where kj = 7, the output block at (ρ, d) is the new accumulator's entry (ρ, d) over its entry (ρ, 128). -/
theorem out_C (c : Dev nD) (t : Fin cfg0.N) (h0 : ¬t.val % 8 = 0) (h1 : t.val % 8 = 7) (ρ : Fin 1024) (d : Fin 128) :
    ((outsAt0 m c t.val t.isLt).1 : Vec Ideal S1024x128 .f32) (ix2 ρ d)
      = Ideal.div (((outsAt0 m c t.val t.isLt).2.2 : Vec Ideal S1024x256 .f32) (ix2 ρ (⟨d.val, by omega⟩ : Fin 256)))
          (((outsAt0 m c t.val t.isLt).2.2 : Vec Ideal S1024x256 .f32) (ix2 ρ (⟨128, by omega⟩ : Fin 256))) := by
  rw [outsAt0_C m c t h0 h1]; dsimp only
  rw [sout0_C_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2]
  refine (congrFun (out0_C_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 ρ d)).trans ?_
  exact pay2_apply _ ρ d

/-! ## The invariant over the points -/

/-- THE INVARIANT. After the body at position n = 8·qi + kj, at row ρ of the block (row R = 1024·qi + ρ of the matrix):
    the running maximum's buffer holds the first component of `onl` after block kj of row R (whatever weights and
    values `onl` is run with: the maximum does not see them), and the accumulator's, at column d, its second component
    run with row R's weights and column d of the augmented values. -/
theorem scratch_inv (c : Dev nD) : ∀ (n : ℕ) (hn : n < cfg0.N) (ρ : Fin 1024) (R : Fin 8192), R.val = 1024 * (n / 8) + ρ.val →
    (∀ (z : Fin 1) (a v : ℕ → Fin 1024 → EReal),
        ((outsAt0 m c n hn).2.1 : Vec Ideal S1024x1 .f32) (ix2 ρ z) = (onl (blk (Srow m c R)) a v (n % 8)).1)
    ∧ (∀ d : Fin 256,
        ((outsAt0 m c n hn).2.2 : Vec Ideal S1024x256 .f32) (ix2 ρ d)
          = (onl (blk (Srow m c R)) (blk (Arow m c R)) (blk (Vcol m c d)) (n % 8)).2) := by
  intro n
  induction n with
  | zero =>
    intro hn ρ R hR
    have h0 : (⟨0, hn⟩ : Fin cfg0.N).val % 8 = 0 := rfl
    have h1 : ¬(⟨0, hn⟩ : Fin cfg0.N).val % 8 = 7 := by show ¬(0 % 8 = 7); omega
    refine ⟨fun z a v => ?_, fun d => ?_⟩
    · refine (max_A m c ⟨0, hn⟩ h0 h1 ρ z).trans ?_
      rw [blk_scores m c ⟨0, hn⟩ ρ R hR]
      rfl
    · refine (acc_A m c ⟨0, hn⟩ h0 h1 ρ d).trans ?_
      rw [blk_scores m c ⟨0, hn⟩ ρ R hR, blk_weights m c ⟨0, hn⟩ ρ R hR, blk_values m c ⟨0, hn⟩ d]
      rfl
  | succ n ih =>
    intro hn ρ R hR
    have hN : n + 1 < 64 := lt_of_lt_of_eq hn N_0
    by_cases h0 : (n + 1) % 8 = 0
    · have h1 : ¬(n + 1) % 8 = 7 := by omega
      refine ⟨fun z a v => ?_, fun d => ?_⟩
      · refine (max_A m c ⟨n + 1, hn⟩ h0 h1 ρ z).trans ?_
        rw [blk_scores m c ⟨n + 1, hn⟩ ρ R hR]
        show stepMax ⊥ (blk (Srow m c R) ((n + 1) % 8)) = (onl (blk (Srow m c R)) a v ((n + 1) % 8)).1
        rw [h0]; rfl
      · refine (acc_A m c ⟨n + 1, hn⟩ h0 h1 ρ d).trans ?_
        rw [blk_scores m c ⟨n + 1, hn⟩ ρ R hR, blk_weights m c ⟨n + 1, hn⟩ ρ R hR, blk_values m c ⟨n + 1, hn⟩ d]
        show stepAcc ⊥ 0 (blk (Srow m c R) ((n + 1) % 8)) (blk (Arow m c R) ((n + 1) % 8)) (blk (Vcol m c d) ((n + 1) % 8))
          = (onl (blk (Srow m c R)) (blk (Arow m c R)) (blk (Vcol m c d)) ((n + 1) % 8)).2
        rw [h0]; rfl
    · have hk : (n + 1) % 8 = n % 8 + 1 := by omega
      have hq : (n + 1) / 8 = n / 8 := by omega
      obtain ⟨ihM, ihA⟩ := ih (Nat.lt_of_succ_lt hn) ρ R (by rw [hR, hq])
      refine ⟨fun z a v => ?_, fun d => ?_⟩
      · have step : ((outsAt0 m c (n + 1) hn).2.1 : Vec Ideal S1024x1 .f32) (ix2 ρ z)
            = stepMax (((outsAt0 m c n (Nat.lt_of_succ_lt hn)).2.1 : Vec Ideal S1024x1 .f32) (ix2 ρ z))
                (sblk (iblk m c 0 ⟨n + 1, hn⟩) (iblk m c 1 ⟨n + 1, hn⟩) ρ) := by
          by_cases h1 : (n + 1) % 8 = 7
          · exact max_C m c ⟨n + 1, hn⟩ h0 h1 ρ z
          · exact max_B m c ⟨n + 1, hn⟩ h0 h1 ρ z
        rw [step, ihM z a v, blk_scores m c ⟨n + 1, hn⟩ ρ R hR]
        show stepMax _ (blk (Srow m c R) ((n + 1) % 8)) = (onl (blk (Srow m c R)) a v ((n + 1) % 8)).1
        rw [hk]; rfl
      · have step : ((outsAt0 m c (n + 1) hn).2.2 : Vec Ideal S1024x256 .f32) (ix2 ρ d)
            = stepAcc (((outsAt0 m c n (Nat.lt_of_succ_lt hn)).2.1 : Vec Ideal S1024x1 .f32) (ix2 ρ (0 : Fin 1)))
                (((outsAt0 m c n (Nat.lt_of_succ_lt hn)).2.2 : Vec Ideal S1024x256 .f32) (ix2 ρ d))
                (sblk (iblk m c 0 ⟨n + 1, hn⟩) (iblk m c 1 ⟨n + 1, hn⟩) ρ)
                (fun γ => (iblk m c 2 ⟨n + 1, hn⟩ : Vec Ideal S1024x1024 .f32) (ix2 ρ γ))
                (fun γ => (iblk m c 3 ⟨n + 1, hn⟩ : Vec Ideal S1024x256 .bf16) (ix2 γ d)) := by
          by_cases h1 : (n + 1) % 8 = 7
          · exact acc_C m c ⟨n + 1, hn⟩ h0 h1 ρ d
          · exact acc_B m c ⟨n + 1, hn⟩ h0 h1 ρ d
        rw [step, ihM 0 (blk (Arow m c R)) (blk (Vcol m c d)), ihA d, blk_scores m c ⟨n + 1, hn⟩ ρ R hR,
          blk_weights m c ⟨n + 1, hn⟩ ρ R hR, blk_values m c ⟨n + 1, hn⟩ d]
        show stepAcc _ _ (blk (Srow m c R) ((n + 1) % 8)) (blk (Arow m c R) ((n + 1) % 8)) (blk (Vcol m c d) ((n + 1) % 8))
          = (onl (blk (Srow m c R)) (blk (Arow m c R)) (blk (Vcol m c d)) ((n + 1) % 8)).2
        rw [hk]; rfl

end Cert.KernelIdeal.Fr

end
-- ==== Proof.KI.Cover.lean ====
/-
  From the blocks the kernel writes back to the whole output array: the output window is written back at the eight
  points with kj = 7, point 8·qi + 7 writing rows 1024·qi … 1024·qi + 1023; those eight blocks tile the 8192 × 128
  array, so if each written block is its rows of one function G, the array ends holding G.
-/
import proofs.«428984_j85152021610588_3_alg».proof.Proof.KI.Frame
import proofs.«428984_j85152021610588_3_alg».proof.Proof.RefValue
import Idealize.ShloMosaic.Lib.Pipeline.Value
import Idealize.ShloMosaic.Lib.ValueIdx
import Idealize.ShloMosaic.Lib.ValueLayout

noncomputable section

open scoped BigOperators

namespace Cert.KernelIdeal.Fr

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## Where the output block sits -/

/-- At point t = 8·qi + kj the output window's block index is (qi, 0); decided over the 64 points. -/
theorem idx_facts4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-! ## What a point writes back -/

/-- A point with kj = 7 writes back rows 1024·(t / 8) … 1024·(t / 8) + 1023 of `G`: entry (ρ, d) of its block sits at
    row (block index) · 1024 + ρ and column 0 · 128 + d of the array. -/
theorem flushed4_eq (c : Dev nD) (G : S8192x128.Idx → EReal)
    (hG : ∀ (t : Fin cfg0.N), t.val % 8 = 7 → ∀ (ρ : Fin 1024) (d : Fin 128) (R : Fin 8192), R.val = 1024 * (t.val / 8) + ρ.val →
      ((outsAt0 m c t.val t.isLt).1 : Vec Ideal S1024x128 .f32) (ix2 ρ d) = G (ix2 R d))
    (t : Fin cfg0.N) (hf : (cfg0.win 4).flush t = true) :
    (dats m 0 c).flushed 4 t = ((cfg0.win 4).blk t).view.read (Elt Ideal) G := by
  have h7 := (flush0_4 t).mp hf
  have hi := idx_facts4 t
  have hN : t.val < 64 := lt_of_lt_of_eq t.isLt (show cfg0.N = 64 from N_0)
  show (cfg0.win 4).cut (grid0.coords t) ((dats m 0 c).after 4 t) = _
  rw [after0_4]
  funext j
  obtain ⟨ρ, d, rfl⟩ : ∃ (ρ : Fin 1024) (d : Fin 128), j = ix2 ρ d := ⟨j 0, j 1, eq_ix2 j⟩
  rw [View.read_apply]
  show ((outsAt0 m c t.val t.isLt).1 : Vec Ideal S1024x128 .f32) (ix2 ρ d) = G _
  refine (hG t h7 ρ d ⟨1024 * (t.val / 8) + ρ.val, by omega⟩ rfl).trans ?_
  congr 1
  funext a
  apply Fin.ext
  match a with
  | ⟨0, _⟩ => show 1024 * (t.val / 8) + ρ.val = win0_4.index t 0 * 1024 + 1 * ρ.val; rw [hi.1]; omega
  | ⟨1, _⟩ => show d.val = win0_4.index t 1 * 128 + 1 * d.val; rw [hi.2]; omega

/-! ## The eight written blocks tile the array -/

/-- An index of the array is in point `t`'s block iff each coordinate is in the block's range on its axis. -/
theorem mem_blk4 (t : Fin cfg0.N) (i : S8192x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v10).slice (win0_4.rect t)).set ↔ _
  rw [View.set_slice_whole, Rect.mem_set_unit]
  exact Iff.rfl

/-- If at every point with kj = 7 the output's staging buffer holds rows 1024·(t / 8) … of `G`, the output array ends at `G`. -/
theorem final_of_blocks (c : Dev nD) (G : S8192x128.Idx → EReal)
    (hG : ∀ (t : Fin cfg0.N), t.val % 8 = 7 → ∀ (ρ : Fin 1024) (d : Fin 128) (R : Fin 8192), R.val = 1024 * (t.val / 8) + ρ.val →
      ((outsAt0 m c t.val t.isLt).1 : Vec Ideal S1024x128 .f32) (ix2 ρ d) = G (ix2 R d)) :
    ((dats m 0 c).arrAt 4 cfg0.N : S8192x128.Idx → EReal) = G := by
  -- row r of the array lies in the block written at the point 8·(r / 1024) + 7
  refine (dats m 0 c).arrAt_eq_of_cover 4 G (flushed4_eq m c G hG) fun i => ?_
  have hr : (i 0).val < 8192 := (i 0).isLt
  have hd : (i 1).val < 128 := (i 1).isLt
  let t : Fin cfg0.N := ⟨8 * ((i 0).val / 1024) + 7, by rw [show cfg0.N = 64 from N_0]; omega⟩
  have ht : t.val = 8 * ((i 0).val / 1024) + 7 := rfl
  have hi := idx_facts4 t
  refine ⟨t, (flush0_4 t).mpr (by omega), ?_⟩
  rw [mem_blk4]
  intro a
  match a with
  | ⟨0, _⟩ => show win0_4.index t 0 * 1024 ≤ (i 0).val ∧ (i 0).val < win0_4.index t 0 * 1024 + 1024; rw [hi.1]; omega
  | ⟨1, _⟩ => show win0_4.index t 1 * 128 ≤ (i 1).val ∧ (i 1).val < win0_4.index t 1 * 128 + 128; rw [hi.2]; omega

end Cert.KernelIdeal.Fr

end
-- ==== Proof.Algebra.lean ====
/-
  The algebra that joins the two programs: on real data whose renormaliser is not zero, the quotient of the
  blockwise accumulators is the reference's doubly normalised sum.
-/
import proofs.«428984_j85152021610588_3_alg».proof.Proof.Spec
import Mathlib.Data.Finset.Fold

noncomputable section

open scoped BigOperators

namespace Cert.Spec

open Idealize.ShloMosaic

/-! ### Real numbers inside the extended reals -/

/-- The coercion of a finite real sum is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division of a real by a nonzero real is real division. -/
theorem div_coe_coe (x : ℝ) {y : ℝ} (hy : y ≠ 0) : Ideal.div (x : EReal) (y : EReal) = ((x / y : ℝ) : EReal) := by
  rw [Ideal.div_coe hy, ← EReal.coe_mul, mul_one_div]

/-- The exponential of a difference of reals. -/
theorem exp_coe_sub (x y : ℝ) : Ideal.exp ((x : EReal) - (y : EReal)) = ((Real.exp (x - y) : ℝ) : EReal) := by
  rw [← EReal.coe_sub, Ideal.exp_coe]

/-- The maximum of finitely many reals, at least one, started from `-∞`, is a real. -/
theorem fold_max_real {ι : Type*} (s : Finset ι) (hs : s.Nonempty) (f : ι → ℝ) :
    ∃ r : ℝ, s.fold max ⊥ (fun i => (f i : EReal)) = (r : EReal) := by
  obtain ⟨a, ha⟩ := hs
  refine ⟨(s.fold max ⊥ (fun i => (f i : EReal))).toReal, (EReal.coe_toReal ?_ ?_).symm⟩
  · exact ne_of_lt ((Finset.fold_max_lt _).mpr ⟨bot_lt_top, fun x _ => EReal.coe_lt_top (f x)⟩)
  · exact ne_of_gt ((Finset.lt_fold_max _).mpr (Or.inr ⟨a, ha, EReal.bot_lt_coe (f a)⟩))

/-- The maximum of anything but `+∞` with a real is a real. -/
theorem max_coe_real {x : EReal} (hx : x ≠ ⊤) (r : ℝ) : ∃ m : ℝ, max x (r : EReal) = (m : EReal) := by
  refine ⟨(max x (r : EReal)).toReal, (EReal.coe_toReal ?_ ?_).symm⟩
  · exact ne_of_lt (max_lt (lt_top_iff_ne_top.mpr hx) (EReal.coe_lt_top r))
  · exact ne_of_gt (lt_max_of_lt_right (EReal.bot_lt_coe r))

/-- A running maximum that is not `+∞`, after one more nonempty block of reals, is a real. -/
theorem stepMax_real {bs : ℕ} (hbs : 0 < bs) {mOld : EReal} (hm : mOld ≠ ⊤) (sb : Fin bs → ℝ) :
    ∃ m : ℝ, stepMax mOld (fun γ => (sb γ : EReal)) = (m : EReal) := by
  haveI : Nonempty (Fin bs) := ⟨⟨0, hbs⟩⟩
  obtain ⟨r, hr⟩ := fold_max_real (Finset.univ : Finset (Fin bs)) Finset.univ_nonempty sb
  rw [stepMax, hr]
  exact max_coe_real hm r

/-- The reference's row maximum of a nonempty real row is a real. -/
theorem refMax_real {n : ℕ} (hn : 0 < n) (S : Fin n → ℝ) :
    ∃ M : ℝ, refMax (fun c => (S c : EReal)) = (M : EReal) := by
  haveI : Nonempty (Fin n) := ⟨⟨0, hn⟩⟩
  obtain ⟨r, hr⟩ := fold_max_real (Finset.univ : Finset (Fin n)) Finset.univ_nonempty S
  rw [refMax, hr]
  exact max_coe_real bot_ne_top r

/-! ### The blockwise recurrence on real data -/

/-- One block's weighted values, on reals, against a real maximum. -/
theorem blockSum_coe {bs : ℕ} (m' : ℝ) (sb ab vb : Fin bs → ℝ) :
    ∑ γ : Fin bs, (Ideal.exp ((sb γ : EReal) - (m' : EReal)) * (ab γ : EReal)) * (vb γ : EReal)
      = ((∑ γ : Fin bs, Real.exp (sb γ - m') * ab γ * vb γ : ℝ) : EReal) := by
  rw [coe_finset_sum]
  refine Finset.sum_congr rfl fun γ _ => ?_
  rw [exp_coe_sub, EReal.coe_mul, EReal.coe_mul]

/-- The first block: the accumulator started at zero from `-∞` is the block's own weighted sum. -/
theorem stepAcc_bot {bs : ℕ} (m' : ℝ) (sb ab vb : Fin bs → ℝ)
    (h : stepMax ⊥ (fun γ => (sb γ : EReal)) = (m' : EReal)) :
    stepAcc ⊥ 0 (fun γ => (sb γ : EReal)) (fun γ => (ab γ : EReal)) (fun γ => (vb γ : EReal))
      = ((∑ γ : Fin bs, Real.exp (sb γ - m') * ab γ * vb γ : ℝ) : EReal) := by
  rw [stepAcc, h, mul_zero, zero_add, blockSum_coe]

/-- A later block: a real accumulator is rescaled by `exp (m - m')` and the block's weighted sum added. -/
theorem stepAcc_coe {bs : ℕ} (m acc m' : ℝ) (sb ab vb : Fin bs → ℝ)
    (h : stepMax (m : EReal) (fun γ => (sb γ : EReal)) = (m' : EReal)) :
    stepAcc (m : EReal) (acc : EReal) (fun γ => (sb γ : EReal)) (fun γ => (ab γ : EReal)) (fun γ => (vb γ : EReal))
      = ((Real.exp (m - m') * acc + ∑ γ : Fin bs, Real.exp (sb γ - m') * ab γ * vb γ : ℝ) : EReal) := by
  rw [stepAcc, h, blockSum_coe, exp_coe_sub, EReal.coe_add, EReal.coe_mul]

/-- Moving the reference point of the exponentials from `m` to `m'` multiplies every term by `exp (m - m')`. -/
theorem rescale_sum {ι : Type*} (t : Finset ι) (m m' : ℝ) (x a v : ι → ℝ) :
    Real.exp (m - m') * ∑ i ∈ t, Real.exp (x i - m) * a i * v i = ∑ i ∈ t, Real.exp (x i - m') * a i * v i := by
  rw [Finset.mul_sum]
  refine Finset.sum_congr rfl fun i _ => ?_
  rw [← mul_assoc, ← mul_assoc, ← Real.exp_add]
  congr 3
  ring

/-- After blocks `0 … j` of real data the running maximum is a real `m` and the accumulator is the sum over
    those blocks of `exp (s - m) · a · v`. -/
theorem onl_real {bs : ℕ} (hbs : 0 < bs) (s a v : ℕ → Fin bs → ℝ) (j : ℕ) :
    ∃ m : ℝ, (onl (fun i γ => (s i γ : EReal)) (fun i γ => (a i γ : EReal)) (fun i γ => (v i γ : EReal)) j).1 = (m : EReal) ∧
      (onl (fun i γ => (s i γ : EReal)) (fun i γ => (a i γ : EReal)) (fun i γ => (v i γ : EReal)) j).2
        = ((∑ i ∈ Finset.range (j + 1), ∑ γ : Fin bs, Real.exp (s i γ - m) * a i γ * v i γ : ℝ) : EReal) := by
  induction j with
  | zero =>
    obtain ⟨m, hm⟩ := stepMax_real hbs bot_ne_top (s 0)
    refine ⟨m, ?_, ?_⟩
    · rw [onl_zero]; exact hm
    · rw [onl_zero]
      show stepAcc ⊥ 0 (fun γ => (s 0 γ : EReal)) (fun γ => (a 0 γ : EReal)) (fun γ => (v 0 γ : EReal)) = _
      rw [stepAcc_bot m (s 0) (a 0) (v 0) hm, Finset.sum_range_one]
  | succ j ih =>
    obtain ⟨m, hm1, hm2⟩ := ih
    obtain ⟨m', hm'⟩ := stepMax_real hbs (EReal.coe_ne_top m) (s (j + 1))
    refine ⟨m', ?_, ?_⟩
    · rw [onl_succ, hm1]; exact hm'
    · rw [onl_succ, hm1, hm2]
      show stepAcc (m : EReal) _ (fun γ => (s (j + 1) γ : EReal)) (fun γ => (a (j + 1) γ : EReal))
        (fun γ => (v (j + 1) γ : EReal)) = _
      rw [stepAcc_coe m _ m' (s (j + 1)) (a (j + 1)) (v (j + 1)) hm', Finset.sum_range_succ _ (j + 1)]
      congr 2
      rw [Finset.mul_sum]
      refine Finset.sum_congr rfl fun i _ => ?_
      exact rescale_sum Finset.univ m m' (s i) (a i) (v i)

/-! ### The reference on real data -/

/-- The softmax weights of a real row: `exp (S c - M) / Σ exp (S c' - M)`. -/
theorem refP_coe {n : ℕ} (S : Fin n → ℝ) (M : ℝ) (hM : refMax (fun c => (S c : EReal)) = (M : EReal))
    (hZ : (∑ c' : Fin n, Real.exp (S c' - M)) ≠ 0) (c : Fin n) :
    refP (fun c => (S c : EReal)) c = ((Real.exp (S c - M) / ∑ c' : Fin n, Real.exp (S c' - M) : ℝ) : EReal) := by
  have hsum : (0 : EReal) + ∑ c' : Fin n, Ideal.exp ((S c' : EReal) - (M : EReal))
      = ((∑ c' : Fin n, Real.exp (S c' - M) : ℝ) : EReal) := by
    rw [zero_add, coe_finset_sum]
    exact Finset.sum_congr rfl fun c' _ => exp_coe_sub _ _
  rw [refP, hM, hsum, exp_coe_sub, div_coe_coe _ hZ]

/-- The reference's second divisor on real rows. -/
theorem refDen_coe {n : ℕ} (S A : Fin n → ℝ) (M : ℝ) (hM : refMax (fun c => (S c : EReal)) = (M : EReal))
    (hZ : (∑ c' : Fin n, Real.exp (S c' - M)) ≠ 0) :
    refDen (fun c => (S c : EReal)) (fun c => (A c : EReal))
      = ((∑ c : Fin n, A c * (Real.exp (S c - M) / ∑ c' : Fin n, Real.exp (S c' - M)) : ℝ) : EReal) := by
  rw [refDen, zero_add, coe_finset_sum]
  refine Finset.sum_congr rfl fun c _ => ?_
  rw [refP_coe S M hM hZ c, EReal.coe_mul]

/-- The reference's result on real rows whose second divisor is not zero. -/
theorem refRow_coe {n : ℕ} (S A V : Fin n → ℝ) (M : ℝ) (hM : refMax (fun c => (S c : EReal)) = (M : EReal))
    (hZ : (∑ c' : Fin n, Real.exp (S c' - M)) ≠ 0)
    (hD : (∑ c : Fin n, A c * (Real.exp (S c - M) / ∑ c' : Fin n, Real.exp (S c' - M))) ≠ 0) :
    refRow (fun c => (S c : EReal)) (fun c => (A c : EReal)) (fun c => (V c : EReal))
      = ((∑ c : Fin n, A c * (Real.exp (S c - M) / ∑ c' : Fin n, Real.exp (S c' - M))
            / (∑ c₁ : Fin n, A c₁ * (Real.exp (S c₁ - M) / ∑ c' : Fin n, Real.exp (S c' - M))) * V c : ℝ) : EReal) := by
  rw [refRow, coe_finset_sum, refDen_coe S A M hM hZ]
  refine Finset.sum_congr rfl fun c _ => ?_
  rw [refP_coe S M hM hZ c, ← EReal.coe_mul, div_coe_coe _ hD, ← EReal.coe_mul]

/-! ### The cancellation, in the reals -/

/-- The quotient of the two accumulators, taken against any reference point `m`, is the doubly normalised sum
    taken against `M`: the factor `exp (M - m)` and the softmax denominator `Z` cancel. -/
theorem real_quotient {ι : Type*} (t : Finset ι) (S A V : ι → ℝ) (m M : ℝ)
    (hZ : (∑ c ∈ t, Real.exp (S c - M)) ≠ 0)
    (hD : (∑ c ∈ t, A c * (Real.exp (S c - M) / ∑ c' ∈ t, Real.exp (S c' - M))) ≠ 0) :
    (∑ c ∈ t, Real.exp (S c - m) * A c * 1) ≠ 0 ∧
    (∑ c ∈ t, Real.exp (S c - m) * A c * V c) / (∑ c ∈ t, Real.exp (S c - m) * A c * 1)
      = ∑ c ∈ t, A c * (Real.exp (S c - M) / ∑ c' ∈ t, Real.exp (S c' - M))
          / (∑ c₁ ∈ t, A c₁ * (Real.exp (S c₁ - M) / ∑ c' ∈ t, Real.exp (S c' - M))) * V c := by
  set Z : ℝ := ∑ c' ∈ t, Real.exp (S c' - M) with hZdef
  have hk : Real.exp (M - m) ≠ 0 := (Real.exp_pos _).ne'
  have h3 : (∑ c ∈ t, A c * (Real.exp (S c - M) / Z)) = (∑ c ∈ t, Real.exp (S c - M) * A c * 1) / Z := by
    rw [Finset.sum_div]
    exact Finset.sum_congr rfl fun c _ => by ring
  have hD0 : (∑ c ∈ t, Real.exp (S c - M) * A c * 1) ≠ 0 := by
    intro h0
    rw [h3, h0, zero_div] at hD
    exact hD rfl
  have h4 : (∑ c ∈ t, A c * (Real.exp (S c - M) / Z) / (∑ c₁ ∈ t, A c₁ * (Real.exp (S c₁ - M) / Z)) * V c)
      = (∑ c ∈ t, Real.exp (S c - M) * A c * V c) / Z / (∑ c₁ ∈ t, A c₁ * (Real.exp (S c₁ - M) / Z)) := by
    rw [Finset.sum_div, Finset.sum_div]
    exact Finset.sum_congr rfl fun c _ => by ring
  rw [← rescale_sum t M m S A V, ← rescale_sum t M m S A (fun _ => 1)]
  refine ⟨mul_ne_zero hk hD0, ?_⟩
  rw [h4, h3]
  field_simp

/-! ### The eight blocks of a row -/

/-- Block `j` of a real row; zero past the eighth block. -/
def blkR (X : Fin 8192 → ℝ) (j : ℕ) (γ : Fin 1024) : ℝ :=
  if h : j < 8 then X ⟨1024 * j + γ.val, by omega⟩ else 0

/-- The blocks of a coerced real row are the coerced blocks of the row. -/
theorem blk_coe (X : Fin 8192 → ℝ) : blk (fun c => (X c : EReal)) = fun j γ => (blkR X j γ : EReal) := by
  funext j γ
  unfold blk blkR
  by_cases h : j < 8
  · rw [dif_pos h, dif_pos h]
  · rw [dif_neg h, dif_neg h, EReal.coe_zero]

/-- Pairs (block, entry) against positions in the row: `(i, γ) ↦ γ + 1024 i`. -/
def blockEquiv : Fin 8 × Fin 1024 ≃ Fin 8192 := finProdFinEquiv

/-- Entry `γ` of block `i` is entry `γ + 1024 i` of the row. -/
theorem blkR_eq (X : Fin 8192 → ℝ) (p : Fin 8 × Fin 1024) :
    blkR X p.1 p.2 = X (blockEquiv p) := by
  rw [blkR, dif_pos p.1.isLt]
  exact congrArg X (Fin.ext (by simp [blockEquiv, finProdFinEquiv, add_comm]))

/-- A sum over the eight blocks, entry by entry, is the sum over the row. -/
theorem sum_blocks (F : ℝ → ℝ → ℝ → ℝ) (S A V : Fin 8192 → ℝ) :
    ∑ i ∈ Finset.range 8, ∑ γ : Fin 1024, F (blkR S i γ) (blkR A i γ) (blkR V i γ)
      = ∑ c : Fin 8192, F (S c) (A c) (V c) := by
  rw [Finset.sum_range (fun i => ∑ γ : Fin 1024, F (blkR S i γ) (blkR A i γ) (blkR V i γ)),
    ← Fintype.sum_prod_type' (fun (i : Fin 8) (γ : Fin 1024) => F (blkR S i γ) (blkR A i γ) (blkR V i γ))]
  refine Fintype.sum_equiv blockEquiv _ (fun c : Fin 8192 => F (S c) (A c) (V c)) fun p => ?_
  rw [blkR_eq, blkR_eq, blkR_eq]

/-! ### The two programs on real rows -/

/-- THE ALGEBRA for rows given as real functions. -/
theorem online_eq_ref_real (S A V : Fin 8192 → ℝ)
    (hden : refDen (fun c => (S c : EReal)) (fun c => (A c : EReal)) ≠ 0) :
    Ideal.div (onl (blk fun c => (S c : EReal)) (blk fun c => (A c : EReal)) (blk fun c => (V c : EReal)) 7).2
        (onl (blk fun c => (S c : EReal)) (blk fun c => (A c : EReal)) (fun _ _ => 1) 7).2
      = refRow (fun c => (S c : EReal)) (fun c => (A c : EReal)) (fun c => (V c : EReal)) := by
  -- the reference: a real maximum, a positive softmax denominator, a nonzero second divisor
  obtain ⟨M, hM⟩ := refMax_real (by norm_num : 0 < 8192) S
  have hZ : (∑ c' : Fin 8192, Real.exp (S c' - M)) ≠ 0 :=
    (Finset.sum_pos (fun c _ => Real.exp_pos _) Finset.univ_nonempty).ne'
  have hD : (∑ c : Fin 8192, A c * (Real.exp (S c - M) / ∑ c' : Fin 8192, Real.exp (S c' - M))) ≠ 0 := by
    rw [refDen_coe S A M hM hZ] at hden
    exact EReal.coe_ne_zero.mp hden
  -- the two blockwise runs share one real running maximum
  obtain ⟨m, hm, hN⟩ := onl_real (by norm_num : 0 < 1024) (blkR S) (blkR A) (blkR V) 7
  obtain ⟨m₁, hm₁, hD₁⟩ := onl_real (by norm_num : 0 < 1024) (blkR S) (blkR A) (fun _ _ => 1) 7
  have hmm : m₁ = m := by
    rw [onl_fst _ _ _ (fun i γ => (blkR A i γ : EReal)) (fun i γ => (blkR V i γ : EReal)), hm] at hm₁
    exact (EReal.coe_eq_coe_iff.mp hm₁).symm
  subst hmm
  -- their accumulators are sums over the whole row
  have hN' : (∑ i ∈ Finset.range (7 + 1), ∑ γ : Fin 1024, Real.exp (blkR S i γ - m₁) * blkR A i γ * blkR V i γ)
      = ∑ c : Fin 8192, Real.exp (S c - m₁) * A c * V c :=
    sum_blocks (fun x a v => Real.exp (x - m₁) * a * v) S A V
  have hD' : (∑ i ∈ Finset.range (7 + 1), ∑ γ : Fin 1024, Real.exp (blkR S i γ - m₁) * blkR A i γ * 1)
      = ∑ c : Fin 8192, Real.exp (S c - m₁) * A c * 1 :=
    sum_blocks (fun x a _ => Real.exp (x - m₁) * a * 1) S A A
  have hD₂ : (onl (fun i γ => (blkR S i γ : EReal)) (fun i γ => (blkR A i γ : EReal)) (fun _ _ => (1 : EReal)) 7).2
      = ((∑ c : Fin 8192, Real.exp (S c - m₁) * A c * 1 : ℝ) : EReal) := by
    rw [← hD']; exact hD₁
  obtain ⟨hne, hq⟩ := real_quotient Finset.univ S A V m₁ M hZ hD
  rw [blk_coe, blk_coe, blk_coe, hN, hN', hD₂, refRow_coe S A V M hM hZ hD, div_coe_coe _ hne, hq]

/-- THE ALGEBRA. On real data whose renormaliser is not zero, the blockwise accumulators' quotient is the
    reference's doubly normalised sum. -/
theorem online_eq_ref (S A V : Fin 8192 → EReal) (hS : IsReal S) (hA : IsReal A) (hV : IsReal V)
    (hden : refDen S A ≠ 0) :
    Ideal.div (onl (blk S) (blk A) (blk V) 7).2 (onl (blk S) (blk A) (fun _ _ => 1) 7).2 = refRow S A V := by
  have hS : ∀ i, ∃ x : ℝ, S i = (x : EReal) := hS
  have hA : ∀ i, ∃ x : ℝ, A i = (x : EReal) := hA
  have hV : ∀ i, ∃ x : ℝ, V i = (x : EReal) := hV
  choose S' hS' using hS
  choose A' hA' using hA
  choose V' hV' using hV
  obtain rfl : S = fun c => (S' c : EReal) := funext hS'
  obtain rfl : A = fun c => (A' c : EReal) := funext hA'
  obtain rfl : V = fun c => (V' c : EReal) := funext hV'
  exact online_eq_ref_real S' A' V' hden

end Cert.Spec

end
-- ==== Proof.PreDecode.lean ====
/-
  What the precondition says of the inputs: every entry of the six arrays is a real number (so are the hidden
  features, keys and queries computed from them), and no row's renormaliser is zero.

  The precondition is a conjunction of seven one-bit facts. Six are `all (|x| < +∞)`, one per input array: in the
  extended reals `|x| = max x (-x)` is below `+∞` exactly when `x` is neither infinity, that is, a real number. The
  seventh is `all (rowsum ≠ 0)`, where `rowsum` is built by the very operations of the reference up to its second
  divisor, so it IS that divisor. Sums and products of reals are real, which carries reality from the inputs to the
  hidden features `eps + h · W_fc`, the keys, the queries and every row of scores.
-/
import proofs.«428984_j85152021610588_3_alg».proof.Proof.RefValue
import proofs.«428984_j85152021610588_3_alg».proof.Proof.Gen.Pre_finite_inputs
import Idealize.ShloMosaic.Lib.ReduceAll
import Idealize.ShloMosaic.Lib.StableHlo.Predicate

noncomputable section

open scoped BigOperators

namespace Cert.PreSide

open Cert.ReferenceIdeal Cert.ReferenceIdeal.Read Idealize.ShloMosaic Idealize.ShloMosaic.ValueIdx Cert.RefSide
open Cert.Spec (IsReal)

/-! ## Reals inside the extended reals -/

/-- A finite sum of real numbers, taken in the extended reals, is the real sum. -/
theorem coe_finset_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of entries of two real arrays is real, whichever entries each term reads. -/
theorem isReal_sum_mul {ι α β γ : Type} [Fintype ι] (f : α → EReal) (g : β → EReal) (hf : IsReal f) (hg : IsReal g)
    (a : γ → ι → α) (b : γ → ι → β) : IsReal (fun j => ∑ k : ι, f (a j k) * g (b j k)) := by
  choose rf hrf using hf
  choose rg hrg using hg
  intro j
  refine ⟨∑ k : ι, rf (a j k) * rg (b j k), ?_⟩
  rw [← coe_finset_sum]
  refine Finset.sum_congr rfl fun k _ => ?_
  rw [hrf, hrg, EReal.coe_mul]

/-- `|x| < +∞` holds of an extended real only when it is a real number: `max x (-x)` is `+∞` at both infinities. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  have top : Ideal.ofBits .f32 0x7F800000#32 = ⊤ := by simp [Ideal.ofBits, Ideal.ieee]
  have h' : Ideal.cmp .olt (max x (-x)) (Ideal.ofBits .f32 0x7F800000#32) = 1#1 := h
  rw [top] at h'
  induction x using EReal.rec with
  | bot => simp [Ideal.cmp] at h'
  | coe r => exact ⟨r, rfl⟩
  | top => simp [Ideal.cmp] at h'

/-- `x ≠ 0` as a one-bit comparison against the pattern of zero, equal to one: `x` is not zero. -/
theorem ne_zero_of_une (x : EReal)
    (h : FloatOps.cmpf (F := Ideal) (φ := .f32) .une x (FloatOps.ofBits .f32 0x00000000#32) = 1#1) : x ≠ 0 := by
  have h' : Ideal.cmp .une x (Ideal.ofBits .f32 0x00000000#32) = 1#1 := h
  rw [Ideal.ofBits_zero_f32] at h'
  intro hz
  rw [hz] at h'
  simp [Ideal.cmp] at h'

/-! ## The seven conjuncts -/

/-- The scalar shape has one index. -/
instance subsingleton_scalarIdx : Subsingleton Cert.Pre_finite_inputs.S_.Idx := ⟨fun a b => funext fun d => d.elim0⟩

/-- `all (|x| < +∞)` over a whole array, equal to one: every entry of `x` is real. -/
theorem isReal_of_all_lt_inf {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (cmpf .olt (Host.absf x) (broadcastInDim s ![] hb (constant (F := Ideal) Cert.Pre_finite_inputs.S_ .f32 0x7F800000#32)))
        (constantI Cert.Pre_finite_inputs.S_ 1 1#1) hr hu ix0 = 1#1) : IsReal x :=
  fun i => real_of_abs_lt_inf (x i) (Host.reduce_andi_all _ _ hr hu ix0 h i)

variable (x0 : FVec Ideal S8192x256 .f32) (x1 : FVec Ideal S8192x128 .f32) (x2 : FVec Ideal S8192x8192 .f32)
  (x3 : FVec Ideal S256x128 .f32) (x4 x5 : FVec Ideal S128x16 .f32)

/-- The printed precondition, all ones: every input is real. -/
theorem real_of_pre (h : Cert.Pre_finite_inputs.fn (F := Ideal) x0 x1 x2 x3 x4 x5 = fun _ => 1#1) :
    IsReal x0 ∧ IsReal x1 ∧ IsReal x2 ∧ IsReal x3 ∧ IsReal x4 ∧ IsReal x5 := by
  have h0 := congrFun h ix0
  dsimp only [Cert.Pre_finite_inputs.fn, Cert.Pre_finite_inputs.fn_part1, Cert.Pre_finite_inputs.fn_part2] at h0
  obtain ⟨h6, -⟩ := IntOp.andi_eq_one.1 h0
  obtain ⟨h5, e5⟩ := IntOp.andi_eq_one.1 h6
  obtain ⟨h4, e4⟩ := IntOp.andi_eq_one.1 h5
  obtain ⟨h3, e3⟩ := IntOp.andi_eq_one.1 h4
  obtain ⟨h2, e2⟩ := IntOp.andi_eq_one.1 h3
  obtain ⟨e0, e1⟩ := IntOp.andi_eq_one.1 h2
  exact ⟨isReal_of_all_lt_inf x0 _ _ _ e0, isReal_of_all_lt_inf x1 _ _ _ e1, isReal_of_all_lt_inf x2 _ _ _ e2,
    isReal_of_all_lt_inf x3 _ _ _ e3, isReal_of_all_lt_inf x4 _ _ _ e4, isReal_of_all_lt_inf x5 _ _ _ e5⟩

/-- The printed precondition, all ones: no row's renormaliser (the reference's second divisor) is zero. The row sums the
    seventh conjunct compares with zero are the reference's own second divisor, operation for operation. -/
theorem den_of_pre (h : Cert.Pre_finite_inputs.fn (F := Ideal) x0 x1 x2 x3 x4 x5 = fun _ => 1#1) (R : Fin 8192) :
    val_main_v18 (F := Ideal) x0 x1 x2 x3 x4 x5 (ix1 R) ≠ 0 := by
  have h0 := congrFun h ix0
  dsimp only [Cert.Pre_finite_inputs.fn, Cert.Pre_finite_inputs.fn_part1, Cert.Pre_finite_inputs.fn_part2] at h0
  obtain ⟨-, h7⟩ := IntOp.andi_eq_one.1 h0
  have e := Host.reduce_andi_all _ _ _ _ ix0 h7 (ix1 R)
  change FloatOps.cmpf (F := Ideal) (φ := .f32) .une (val_main_v18 (F := Ideal) x0 x1 x2 x3 x4 x5 (ix1 R))
    (FloatOps.ofBits .f32 0x00000000#32) = 1#1 at e
  exact ne_zero_of_une _ e

/-! ## Reality carried through the sums of products -/

/-- Sums of products of reals are real: the hidden features, keys and queries. -/
theorem real_hh (h0 : IsReal x0) (h1 : IsReal x1) (h3 : IsReal x3) : IsReal (hhT x0 x1 x3) := by
  intro i
  obtain ⟨r1, e1⟩ := h1 i
  obtain ⟨r, e⟩ := isReal_sum_mul x0 x3 h0 h3 lidx_main_v0 ridx_main_v0 i
  refine ⟨r1 + r, ?_⟩
  show val_main_v1 (F := Ideal) x0 x1 x3 i = _
  rw [val_main_v1_apply, val_main_v0_apply, EReal.coe_add, ← e1, ← e]
  rfl
theorem real_k (h0 : IsReal x0) (h1 : IsReal x1) (h3 : IsReal x3) (h4 : IsReal x4) : IsReal (kT x0 x1 x3 x4) := by
  intro i
  obtain ⟨r, e⟩ := isReal_sum_mul _ x4 (real_hh x0 x1 x3 h0 h1 h3) h4 lidx_main_v2 ridx_main_v2 i
  exact ⟨r, (val_main_v2_apply x0 x1 x3 x4 i).trans e⟩
theorem real_q (h0 : IsReal x0) (h1 : IsReal x1) (h3 : IsReal x3) (h5 : IsReal x5) : IsReal (qT x0 x1 x3 x5) := by
  intro i
  obtain ⟨r, e⟩ := isReal_sum_mul _ x5 (real_hh x0 x1 x3 h0 h1 h3) h5 lidx_main_v3 ridx_main_v3 i
  exact ⟨r, (val_main_v3_apply x0 x1 x3 x5 i).trans e⟩
/-- Hence a row of scores is real. -/
theorem real_score (kk qq : FVec Ideal S8192x16 .f32) (hk : IsReal kk) (hq : IsReal qq) (R : Fin 8192) : IsReal (scoreRow kk qq R) :=
  isReal_sum_mul kk qq hk hq (fun _ e => ix2 R e) (fun c e => ix2 c e)

end Cert.PreSide

end
-- ==== Proof.KI.Final.lean ====
/-
  The attention kernel's result. Where kj = 7 the output block's entry (ρ, d) is the accumulator's entry (ρ, d) over
  its entry (ρ, 128), that is — by the invariant over the points — the quotient of `onl` after the eighth block run
  with column d of the hidden features and run with the constant one; on real inputs whose renormalisers are not zero
  the specification's algebra makes that the reference's entry (R, d). The eight written blocks tile the output, so
  the program ends with the output array at the reference's value, its six arguments as launched.
-/
import proofs.«428984_j85152021610588_3_alg».proof.Proof.KI.Frame
import proofs.«428984_j85152021610588_3_alg».proof.Proof.RefValue
import Idealize.ShloMosaic.Lib.Pipeline.Value
import Idealize.ShloMosaic.Lib.ValueIdx
import Idealize.ShloMosaic.Lib.ValueLayout
import proofs.«428984_j85152021610588_3_alg».proof.Proof.KI.Inv
import proofs.«428984_j85152021610588_3_alg».proof.Proof.KI.Cover
import proofs.«428984_j85152021610588_3_alg».proof.Proof.Algebra
import proofs.«428984_j85152021610588_3_alg».proof.Proof.PreDecode

noncomputable section

open scoped BigOperators

namespace Cert.KernelIdeal.Fr

open Cert.KernelIdeal Cert.KernelIdeal.Gen
open Idealize.ShloMosaic Idealize.ShloMosaic.TcCoe Idealize.SL.Sem Idealize.ShloMosaic.ValueIdx
open Idealize.ShloMosaic.Pipeline (Dat)
open Cert.Spec Cert.KernelIdeal.Pay Cert.RefSide Cert.PreSide Cert.ReferenceIdeal.Read

variable (m : (ℓ : Loc nD τ sig) → Buf (Elt Ideal) ℓ)

/-- `onl` up to block j sees the scores, weights and values of blocks 0 … j only. -/
theorem onl_congr {bs : ℕ} (s a v a' v' : ℕ → Fin bs → EReal) (j : ℕ) (ha : ∀ i ≤ j, a i = a' i) (hv : ∀ i ≤ j, v i = v' i) :
    onl s a v j = onl s a' v' j := by
  induction j with
  | zero => rw [onl_zero, onl_zero, ha 0 le_rfl, hv 0 le_rfl]
  | succ j ih =>
    rw [onl_succ, onl_succ, ih (fun i hi => ha i (Nat.le_succ_of_le hi)) (fun i hi => hv i (Nat.le_succ_of_le hi)),
      ha (j + 1) le_rfl, hv (j + 1) le_rfl]

/-- The first eight blocks of the constant one are the constant one. -/
theorem blk_one (j : ℕ) (hj : j ≤ 7) : blk (fun _ => (1 : EReal)) j = fun _ => (1 : EReal) := by
  funext γ; rw [blk_of_lt _ _ (by omega)]

/-- The reference's value of the result, on core c's inputs. -/
def refOut (c : Dev nD) : S8192x128.Idx → EReal :=
  val_main_v22 (F := Ideal) (in0 m c) (in1 m c) (in2 m c) (in3 m c) (in4 m c) (in5 m c)

/-- Where kj = 7: the output block's entry is the reference's. -/
theorem out_eq_ref (c : Dev nD)
    (hpre : Cert.Pre_finite_inputs.fn (F := Ideal) (in0 m c) (in1 m c) (in2 m c) (in3 m c) (in4 m c) (in5 m c) = fun _ => 1#1)
    (t : Fin cfg0.N) (h7 : t.val % 8 = 7) (ρ : Fin 1024) (d : Fin 128) (R : Fin 8192) (hR : R.val = 1024 * (t.val / 8) + ρ.val) :
    ((outsAt0 m c t.val t.isLt).1 : Vec Ideal S1024x128 .f32) (ix2 ρ d) = refOut m c (ix2 R d) := by
  obtain ⟨r0, r1, r2, r3, r4, r5⟩ := real_of_pre _ _ _ _ _ _ hpre
  have h0 : ¬t.val % 8 = 0 := by omega
  obtain ⟨-, hA⟩ := scratch_inv m c t.val t.isLt ρ R hR
  rw [out_C m c t h0 h7 ρ d, hA, hA, h7]
  have hV : Vcol m c (⟨d.val, by omega⟩ : Fin 256) = valCol (hhT (in0 m c) (in1 m c) (in3 m c)) d :=
    funext fun C => V_values_lt m c C _ d.isLt d rfl
  have h1 : Vcol m c (⟨128, by omega⟩ : Fin 256) = fun _ => (1 : EReal) :=
    funext fun C => V_values_one m c C _ rfl
  rw [hV, h1, onl_congr (blk (Srow m c R)) (blk (Arow m c R)) (blk fun _ => (1 : EReal)) (blk (Arow m c R)) (fun _ _ => 1) 7
    (fun _ _ => rfl) (fun i hi => blk_one i hi)]
  unfold refOut
  rw [ref_apply]
  refine online_eq_ref (Srow m c R) (Arow m c R) _ ?_ ?_ ?_ ?_
  · exact real_score _ _ (real_k _ _ _ _ r0 r1 r3 r4) (real_q _ _ _ _ r0 r1 r3 r5) R
  · exact fun C => r2 (ix2 R C)
  · exact fun C => real_hh _ _ _ r0 r1 r3 (ix2 C d)
  · have := den_of_pre _ _ _ _ _ _ hpre R
    rwa [ref_den] at this

/-- The output array after the run is the reference's value. -/
theorem final_out (c : Dev nD)
    (hpre : Cert.Pre_finite_inputs.fn (F := Ideal) (in0 m c) (in1 m c) (in2 m c) (in3 m c) (in4 m c) (in5 m c) = fun _ => 1#1) :
    ((dats m 0 c).arrAt 4 cfg0.N : S8192x128.Idx → EReal) = refOut m c :=
  final_of_blocks m c (refOut m c) fun t h7 ρ d R hR => out_eq_ref m c hpre t h7 ρ d R hR

/-- THE RUN, READ: under the precondition the program terminates with the result array at the reference's value of the
    inputs and the six arguments as launched. -/
theorem run_value (ρ : Dev nD → PrngReg) (hpre : Cert.Pre_KernelIdeal m) :
    θ_run defs (onTc (τ := τ) (main (F := Ideal))) ⟨m, fun _ => 0, ρ⟩ (fun r => ∀ c : Dev nD,
      r.2.mem ((c.tc : Thread nD τ).loc main_v10) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 4).trans (final_out m c (hpre c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Fr

end
-- ==== Proof.lean ====
/-
  The certificate of the attention kernel against its reference. Both programs compute, for every row R of an
  8192 × 8192 attention matrix, the average of the hidden features hh weighted by a_str R c · exp (k_R · q_c): the
  reference through a softmax over the row followed by a renormalisation of the weighted row, the kernel through a
  single blockwise pass (eight blocks of 1024 keys) that carries a running maximum and a rescaled accumulator and
  divides, at the last block, the accumulator's feature columns by its column of accumulated weights. The precondition
  says the inputs are finite and no row's renormaliser is zero; under it the two results are the same extended reals
  (Proof/Algebra.lean). The frames: each program runs to the end, faults nowhere and leaves its arguments unchanged —
  the kernel's two programs by the run of the pipeline over its 64 grid points (Proof/K/Frame.lean at the word level,
  Proof/KI/Frame.lean idealized), the reference by its run.
-/
import proofs.«428984_j85152021610588_3_alg».proof.Defs
import proofs.«428984_j85152021610588_3_alg».proof.Proof.Gen.Kernel
import proofs.«428984_j85152021610588_3_alg».proof.Proof.Gen.KernelIdeal
import proofs.«428984_j85152021610588_3_alg».proof.Proof.Gen.ReferenceIdeal
import proofs.«428984_j85152021610588_3_alg».proof.Proof.Gen.Pre_finite_inputs
import proofs.«428984_j85152021610588_3_alg».proof.Proof.Gen.ReferenceIdeal.Run
import proofs.«428984_j85152021610588_3_alg».proof.Proof.Gen.ReferenceIdeal.Read
import proofs.«428984_j85152021610588_3_alg».proof.Proof.K.Frame
import proofs.«428984_j85152021610588_3_alg».proof.Proof.KI.Final
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the reference's value of the (agreeing) inputs. -/
theorem algebraic : Cert.algebraic_KernelIdeal_ReferenceIdeal := by
  intro m ρ m' ρ' hpre hagree
  refine ⟨fun c => Cert.KernelIdeal.Fr.refOut m c, Cert.KernelIdeal.Fr.run_value m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq]
  obtain ⟨e0, e1, e2, e3, e4, e5⟩ := hagree c
  rw [e0, e1, e2, e3, e4, e5]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
